-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S80x10000 : Shape := ⟨2, ![80, 10000]⟩
abbrev S400x256 : Shape := ⟨2, ![400, 256]⟩
abbrev S80x256 : Shape := ⟨2, ![80, 256]⟩

abbrev nBuf : Space → Nat
  | .hbm => 7
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .bf16⟩
  | .hbm, ⟨6, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .bf16⟩
  | .local _ .vmem, ⟨5, _⟩ => ⟨S2000x256, .bf16⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S80x10000, .f32⟩
  | .local _ .vmem, ⟨11, _⟩ => ⟨S80x10000, .f32⟩
  | .local _ .vmem, ⟨12, _⟩ => ⟨S80x10000, .f32⟩
  | .local _ .vmem, ⟨13, _⟩ => ⟨S80x10000, .f32⟩
  | .local _ .vmem, ⟨14, _⟩ => ⟨S80x10000, .f32⟩
  | .local _ .vmem, ⟨15, _⟩ => ⟨S80x10000, .f32⟩
  | .local _ .vmem, ⟨16, _⟩ => ⟨S10000x256, .bf16⟩
  | .local _ .vmem, ⟨17, _⟩ => ⟨S400x256, .f32⟩
  | .local _ .vmem, ⟨18, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S80x10000_S80x10000_0_0 : ∀ a, (![0, 0] : Fin 2 → Nat) a + S80x10000.size a ≤ S80x10000.size a
  h_S80x10000 : 0 < S80x10000.numel
  inb_S400x256_S80x256_0_0 : ∀ a, (![0, 0] : Fin 2 → Nat) a + S80x256.size a ≤ S400x256.size a
  h_S80x256 : 0 < S80x256.numel
  inb_S400x256_S80x256_80_0 : ∀ a, (![80, 0] : Fin 2 → Nat) a + S80x256.size a ≤ S400x256.size a
  inb_S400x256_S80x256_160_0 : ∀ a, (![160, 0] : Fin 2 → Nat) a + S80x256.size a ≤ S400x256.size a
  inb_S400x256_S80x256_240_0 : ∀ a, (![240, 0] : Fin 2 → Nat) a + S80x256.size a ≤ S400x256.size a
  inb_S400x256_S80x256_320_0 : ∀ a, (![320, 0] : Fin 2 → Nat) a + S80x256.size a ≤ S400x256.size a
  dot_S2000x256_S256x256_S2000x256_1_0_0_1_n_n_wf : DotDims.WF S2000x256 S256x256 S2000x256 [1] [0] [0] [1] [] []
  dot_S80x10000_S10000x256_S80x256_1_0_0_1_n_n_wf : DotDims.WF S80x10000 S10000x256 S80x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .bf16 = 32 ∨ (Rect.block (s := S10000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x10000.size a ≤ S10000x10000.size a
  hwx1_1 : ∀ i : grid1.Coords, EltTy.bits .f32 = 32 ∨ (Rect.block (s := S10000x10000) S80x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x10000.size a ≤ S10000x10000.size a
  hwx1_2 : ∀ i : grid1.Coords, EltTy.bits .f32 = 32 ∨ (Rect.block (s := S10000x10000) S80x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x10000.size a ≤ S10000x10000.size a
  hwx1_3 : ∀ i : grid1.Coords, EltTy.bits .f32 = 32 ∨ (Rect.block (s := S10000x10000) S80x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x10000.size a ≤ S10000x10000.size a
  hwx1_4 : ∀ i : grid1.Coords, EltTy.bits .f32 = 32 ∨ (Rect.block (s := S10000x10000) S80x10000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x256.size a ≤ S10000x256.size a
  hwx1_5 : ∀ i : grid1.Coords, EltTy.bits .bf16 = 32 ∨ (Rect.block (s := S10000x256) S10000x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x256.size a ≤ S10000x256.size a
  hwx1_6 : ∀ i : grid1.Coords, EltTy.bits .f32 = 32 ∨ (Rect.block (s := S10000x256) S400x256.size (cc1_transform_6 i) (hinb1_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S80x10000_S10000x256_S80x256_1_0_0_1_n_n : DotDims S80x10000 S10000x256 S80x256 where
  lhsContracting := [1]
  rhsContracting := [0]
  lhsNonContracting := [0]
  rhsNonContracting := [1]
  lhsBatch := []
  rhsBatch := []
  wf := dot_S80x10000_S10000x256_S80x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S80x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S80x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S80x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S80x10000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S10000x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S400x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S1x256, .f32⟩
  | .hbm, ⟨6, _⟩ => ⟨S10000x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.FrameB.Region0.lean ====
/-
  The first pallas_call (grid of 5 points, one per block of 2000 rows): at a point the body reads the point's
  2000×256 block of the first operand, the whole 256×256 second operand and the 1×256 row, and stores into the
  output's 2000×256 block the matrix product of the first two (accumulated from zero) plus the row broadcast
  down the block, narrowed to bf16. Stated at ANY contents `V` of the core's buffers when the call is entered
  and at any float instance: what each window's staging buffer holds before and after the body, the body's
  triple, and from them the obligation the pipeline asks of the body at every point.
-/
import proofs.«174017_g15564961480952_cont_week2b_1514_4_alg».proof.Proof.Gen.Kernel.Launch
import proofs.«174017_g15564961480952_cont_week2b_1514_4_alg».proof.Proof.Gen.Kernel.Skeleton
import proofs.«174017_g15564961480952_cont_week2b_1514_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- The block of window `w` at grid point `t`: the window's rectangle at that point read out of the window's
    array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window that the body leaves as it found it holds its block at every point, whether the pipeline
    fetched it at that point or kept it from the point before (then the block index has not moved). Stated window
    by window: only at a literal window does the window's block type reduce to its literal shape. -/

/-- The 2000-row block of the first operand, which moves with the point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The whole second operand, fetched once. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The row, fetched once. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

/-- The whole 2000×256 block, the whole 256×256 operand, the whole 1×256 row: the three rectangles the body loads,
    and (the first again, over the bf16 buffer) the one it stores through. -/
abbrev whole2000 : Rect S2000x256 := Rect.unit (s := S2000x256) ![0, 0] S2000x256.size inb_S2000x256_S2000x256_0_0
abbrev whole256 : Rect S256x256 := Rect.unit (s := S256x256) ![0, 0] S256x256.size inb_S256x256_S256x256_0_0
abbrev wholeRow : Rect S1x256 := Rect.unit (s := S1x256) ![0, 0] S1x256.size inb_S1x256_S1x256_0_0

/-- The output window's staging buffer after the body, as a function of the three input blocks: the one store's
    payload (product plus broadcast row, narrowed) laid over the whole buffer. -/
def hblock (x : Vec F S2000x256 .f32) (w : Vec F S256x256 .f32) (b : Vec F S1x256 .f32) : Vec F S2000x256 .bf16 :=
  View.canon [⟨whole2000, k0_pay1 (View.ld x whole2000) (View.ld w whole256) (View.ld b wholeRow)⟩]

/-- The one store covers the buffer: its rectangle is the buffer. -/
theorem hblock_cover (p : Vec F S2000x256 .bf16) (y : S2000x256.Idx) :
    ∃ pc ∈ ([⟨whole2000, p⟩] : List (View.Piece (Elt F) S2000x256 .bf16)), y ∈ pc.1.set :=
  View.cover_of_tiled [⟨whole2000, p⟩] S2000x256.size (by rfl) y

/-! ## The body's triple -/

set_option maxHeartbeats 1000000 in
/-- The body, on whole staging buffers holding `x`, `w`, `b` and an output buffer holding anything, runs to its
    end with the inputs as they were and the output at `hblock x w b`. The grid coordinate it is passed is not read. -/
theorem body0_run (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .bf16) (harg4 : arg4.IsWhole)
    (x : Vec F S2000x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (hblock x w b)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hblock_cover _)

/-! ## The proof data of the call -/

/-- What the pipeline is told of this call on core `c`: its windows' arrays hold `V`; after the body each input's
    buffer holds its block and the output's holds `hblock` of the three blocks; the body uses nothing besides its
    windows (the scoped buffers of other calls and the generator register ride along untouched), owes nothing, and
    every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hblock (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = hblock (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-! ## The obligation at a point -/

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it wants back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers hold their blocks, so the body's triple applies; the invariant and what
    the core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_run c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation of the body, at every point. -/
theorem obligation0 (c : Dev nD) : BodyObligation (dat0 (F := F) V c) (defs₀ (F := F)) Variants.none () Set.univ := fun t => by
  rw [bigSep_W0, bigSep_W0]
  exact body0_at V c t

end Cert.Kernel.Frm

end
-- ==== Proof.FrameB.Region1.lean ====
/-
  The second pallas_call (grid of 25 points, one per block of 400 output rows): at a point the body reads five
  80×10000 row blocks of the square operand (five windows on ONE array, at consecutive block indices 5t … 5t+4)
  and the whole 10000×256 right operand, and stores into the output's 400×256 block, 80 rows at a time, the
  matrix product of each row block (narrowed to bf16) with the right operand, accumulated from zero and clamped
  below at zero. Stated at ANY contents `V` of the core's buffers when the call is entered and at any float
  instance: what each window's staging buffer holds before and after the body, the body's triple, and from them
  the obligation the pipeline asks of the body at every point. The five windows on one array hold it at a fifth
  of its share each.
-/
import proofs.«174017_g15564961480952_cont_week2b_1514_4_alg».proof.Proof.Gen.Kernel.Launch
import proofs.«174017_g15564961480952_cont_week2b_1514_4_alg».proof.Proof.Gen.Kernel.Skeleton
import proofs.«174017_g15564961480952_cont_week2b_1514_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- The block of window `w` at grid point `t`: the window's rectangle at that point read out of the window's
    array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window that the body leaves as it found it holds its block at every point, whether the pipeline
    fetched it at that point or kept it from the point before (then the block index has not moved). Stated window
    by window: only at a literal window does the window's block type reduce to its literal shape. -/

/-- Row block 0 of the five (block index 5t+0), fetched at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Row block 1 of the five (block index 5t+1), fetched at every point. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Row block 2 of the five (block index 5t+2), fetched at every point. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Row block 3 of the five (block index 5t+3), fetched at every point. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- Row block 4 of the five (block index 5t+4), fetched at every point. -/
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
/-- The whole right operand, fetched once. -/
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

/-- A whole 80×10000 row block and the whole right operand (what the body loads), and the five 80-row bands of the
    400×256 output buffer (what it stores through). -/
abbrev wholeRows : Rect S80x10000 := Rect.unit (s := S80x10000) ![0, 0] S80x10000.size inb_S80x10000_S80x10000_0_0
abbrev wholeRight : Rect S10000x256 := Rect.unit (s := S10000x256) ![0, 0] S10000x256.size inb_S10000x256_S10000x256_0_0
abbrev band0 : Rect S400x256 := Rect.unit (s := S400x256) ![0, 0] S80x256.size inb_S400x256_S80x256_0_0
abbrev band1 : Rect S400x256 := Rect.unit (s := S400x256) ![80, 0] S80x256.size inb_S400x256_S80x256_80_0
abbrev band2 : Rect S400x256 := Rect.unit (s := S400x256) ![160, 0] S80x256.size inb_S400x256_S80x256_160_0
abbrev band3 : Rect S400x256 := Rect.unit (s := S400x256) ![240, 0] S80x256.size inb_S400x256_S80x256_240_0
abbrev band4 : Rect S400x256 := Rect.unit (s := S400x256) ![320, 0] S80x256.size inb_S400x256_S80x256_320_0

/-- The output window's staging buffer after the body, as a function of the five row blocks and the right operand:
    the five stores' payloads (each the clamped product of one row block with the right operand) laid over their
    bands, the last store first. -/
def oblock (a0 a1 a2 a3 a4 : Vec F S80x10000 .f32) (h : Vec F S10000x256 .bf16) : Vec F S400x256 .f32 :=
  View.canon [⟨band4, k1_pay1 (k1_pay2 (View.ld h wholeRight)) (View.ld a4 wholeRows)⟩,
    ⟨band3, k1_pay6 (View.ld h wholeRight) (View.ld a3 wholeRows)⟩,
    ⟨band2, k1_pay5 (View.ld h wholeRight) (View.ld a2 wholeRows)⟩,
    ⟨band1, k1_pay4 (View.ld h wholeRight) (View.ld a1 wholeRows)⟩,
    ⟨band0, k1_pay3 (View.ld h wholeRight) (View.ld a0 wholeRows)⟩]

/-- The five bands tile the buffer, so the five stores cover it. -/
theorem oblock_cover (p4 p3 p2 p1 p0 : Vec F S80x256 .f32) (y : S400x256.Idx) :
    ∃ pc ∈ ([⟨band4, p4⟩, ⟨band3, p3⟩, ⟨band2, p2⟩, ⟨band1, p1⟩, ⟨band0, p0⟩] : List (View.Piece (Elt F) S400x256 .f32)), y ∈ pc.1.set :=
  View.cover_of_tiled [⟨band4, p4⟩, ⟨band3, p3⟩, ⟨band2, p2⟩, ⟨band1, p1⟩, ⟨band0, p0⟩] S80x256.size (by rfl) y

/-! ## The body's triple -/

set_option maxHeartbeats 4000000 in
/-- The body, on whole staging buffers holding the five row blocks and the right operand and an output buffer
    holding anything, runs to its end with the inputs as they were and the output at `oblock` of them. The grid
    coordinate it is passed is not read. -/
theorem body1_run (c : Dev nD) (E : Set ℕ) (i : grid1.Coords)
    (arg1 : Memref sig .tc .vmem S80x10000 .f32) (harg1 : arg1.IsWhole) (arg2 : Memref sig .tc .vmem S80x10000 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S10000x256 .bf16) (harg6 : arg6.IsWhole)
    (arg7 : Memref sig .tc .vmem S400x256 .f32) (harg7 : arg7.IsWhole)
    (a0 a1 a2 a3 a4 : Vec F S80x10000 .f32) (h : Vec F S10000x256 .bf16) (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4 ∗ owns (c : Thread nD τ) arg6 fullShare h
        ∗ (∃ d, owns (c : Thread nD τ) arg7 fullShare d)
        ∗ (iprop(owns (c : Thread nD τ) arg1 fullShare a0 ∗ owns (c : Thread nD τ) arg2 fullShare a1 ∗ owns (c : Thread nD τ) arg3 fullShare a2
            ∗ owns (c : Thread nD τ) arg4 fullShare a3 ∗ owns (c : Thread nD τ) arg5 fullShare a4 ∗ owns (c : Thread nD τ) arg6 fullShare h
            ∗ owns (c : Thread nD τ) arg7 fullShare (oblock a0 a1 a2 a3 a4 h)) -∗ K ⟨⟩))
      ⊢ wp frame (wpE (defs₀ (F := F)) Variants.none c none) E (cc1__agg_kernel i arg1 harg1 arg2 harg2 arg3 harg3 arg4 harg4 arg5 harg5 arg6 harg6 arg7 harg7) K := by
  simp only [cc1__agg_kernel_eq_skeleton]; unfold cc1__agg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (oblock_cover _ _ _ _ _)

/-! ## The proof data of the call -/

/-- The five shares the one square array is held at, one per window on it: a fifth each, dealt by halving the
    remainder (left half to the window, right half on to the next), so that together they are the whole. -/
abbrev fifth0 : PosShare TreeShare := fullShare.left
abbrev fifth1 : PosShare TreeShare := fullShare.right.left
abbrev fifth2 : PosShare TreeShare := fullShare.right.right.left
abbrev fifth3 : PosShare TreeShare := fullShare.right.right.right.left
abbrev fifth4 : PosShare TreeShare := fullShare.right.right.right.right

/-- What the pipeline is told of this call on core `c`: its windows' arrays hold `V`; after the body each input's
    buffer holds its block and the output's holds `oblock` of the six blocks; the body uses nothing besides its
    windows, owes nothing; the square array is held a fifth per window on it, the right operand and the output whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => oblock (blk1 V c 0 t) (blk1 V c 1 t) (blk1 V c 2 t) (blk1 V c 3 t) (blk1 V c 4 t) (blk1 V c 5 t)
  Φ _ := Pipeline.ΦA spec1 c
  q w := match w with
    | ⟨0, _⟩ => fifth0
    | ⟨1, _⟩ => fifth1
    | ⟨2, _⟩ => fifth2
    | ⟨3, _⟩ => fifth3
    | ⟨4, _⟩ => fifth4
    | ⟨5, _⟩ => fullShare
    | ⟨6, _⟩ => fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) :
    (dat1 V c).after 6 t = oblock (blk1 V c 0 t) (blk1 V c 1 t) (blk1 V c 2 t) (blk1 V c 3 t) (blk1 V c 4 t) (blk1 V c 5 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d
theorem dat1_before5 (c : Dev nD) (t : Fin cfg1.N) (d) : (dat1 V c).before 5 t d = blk1 V c 5 t :=
  found1_5 V (dat1 V c) (dat1_A V c 5) (dat1_after5 V c) t d

/-! ## The obligation at a point -/

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it wants back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- At any point the six input buffers hold their blocks, so the body's triple applies; the invariant and what
    the core owes pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1_run c Set.univ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation of the body, at every point. -/
theorem obligation1 (c : Dev nD) : BodyObligation (dat1 (F := F) V c) (defs₀ (F := F)) Variants.none () Set.univ := fun t => by
  rw [bigSep_W1, bigSep_W1]
  exact body1_at V c t

end Cert.Kernel.Frm

end
-- ==== Proof.FrameB.Segs.lean ====
/-
  The two pallas_calls as segments of @main, each between two states of the core's thread: "every unscoped
  buffer held whole at a valuation, the generator register at some state, nothing owed". A call is entered from
  the valuation `Wa` and left at `Wb`, which differs from `Wa` only at the call's output array, holding there
  what the pipeline's write-backs leave. The first call's arrays are four distinct buffers, each held whole. The
  second call reads ONE square array through five windows: at entry that array's full share is dealt into
  fifths, one per window (halving the remainder four times), and at exit the five fifths, all still at the
  entry contents since an input window writes nothing back, are joined into the whole again.
-/
import proofs.«174017_g15564961480952_cont_week2b_1514_4_alg».proof.Proof.FrameB.Region0
import proofs.«174017_g15564961480952_cont_week2b_1514_4_alg».proof.Proof.FrameB.Region1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What rides along, and the proof data of both calls -/

abbrev 𝒱₀ : Variants := Variants.none
/-- No core owes another anything: no level is assigned. -/
abbrev L : GSem nD τ sig → Finset Unit := fun _ => ∅
abbrev lv : GSem nD τ sig → Unit → ℕ := fun _ _ => 0
/-- No call has a prefetched table. -/
abbrev adm : (p : Fin 2) → (pcfgs (F := F) p).Adm := fun p => (cfgs p).toPCfg_adm

/-- Beside the buffers, through every segment: the generator register at some state and the core owing nothing. -/
abbrev Rest (c : Dev nD) : sProp 𝕄 := iprop((∃ r, prngReg c r) ∗ ∃ W, owes (c : Thread nD τ) (0 : CellTallies nD τ sig Unit) W)

/-- A valuation of the core's buffers read at the TensorCore's references. -/
abbrev atRefs (W : Dev nD → Valuation τ sig (Elt F)) : (c : Dev nD) → (b : Ref sig .tc) → Buf (Elt F) ((c : Thread nD τ).loc b) :=
  fun c b => W c b

variable (W0 W1 W2 : Dev nD → Valuation τ sig (Elt F))

/-- Both calls' proof data: the first call's at the valuation it is entered from, the second's at its own. -/
def pdats : (p : Fin 2) → (c : Dev nD) → Dat τ (Elt F) Unit ℕ (UR sig nD τ) ℕ (Pipeline.pin (pcfgs (F := F)) adm p) c
  | ⟨0, _⟩ => fun c => dat0 (atRefs W0) c
  | ⟨1, _⟩ => fun c => dat1 (atRefs W1) c

/-! ## The fifths of a buffer -/

/-- A buffer held whole is the same buffer held five times at a fifth: halve, then halve the right half, … -/
theorem deal5 (ℓ : Loc nD τ sig) (f : Buf (Elt F) ℓ) :
    (ℓ ↦{fullShare} f : sProp 𝕄)
      ⊢ iprop((ℓ ↦{fifth0} f) ∗ (ℓ ↦{fifth1} f) ∗ (ℓ ↦{fifth2} f) ∗ (ℓ ↦{fifth3} f) ∗ (ℓ ↦{fifth4} f)) :=
  (pointsTo_share (PosShare.mem_left_op_right fullShare)).1.trans <| sep_mono .rfl <|
  (pointsTo_share (PosShare.mem_left_op_right fullShare.right)).1.trans <| sep_mono .rfl <|
  (pointsTo_share (PosShare.mem_left_op_right fullShare.right.right)).1.trans <| sep_mono .rfl <|
  (pointsTo_share (PosShare.mem_left_op_right fullShare.right.right.right)).1

/-- and back: five fifths of one buffer at one contents are the buffer whole. -/
theorem join5 (ℓ : Loc nD τ sig) (f : Buf (Elt F) ℓ) :
    (iprop((ℓ ↦{fifth0} f) ∗ (ℓ ↦{fifth1} f) ∗ (ℓ ↦{fifth2} f) ∗ (ℓ ↦{fifth3} f) ∗ (ℓ ↦{fifth4} f)) : sProp 𝕄)
      ⊢ (ℓ ↦{fullShare} f) :=
  (sep_mono .rfl <| (sep_mono .rfl <| (sep_mono .rfl
      (pointsTo_share (PosShare.mem_left_op_right fullShare.right.right.right)).2).trans
      (pointsTo_share (PosShare.mem_left_op_right fullShare.right.right)).2).trans
      (pointsTo_share (PosShare.mem_left_op_right fullShare.right)).2).trans
      (pointsTo_share (PosShare.mem_left_op_right fullShare)).2

/-! ## The second call's arrays, window by window -/

/-- The second call's seven windowed arrays at contents `G`: the square array five times at a fifth, the right
    operand and the output whole. -/
theorem arrays1_chain (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fifth0} G 0) ∗ (((c : Thread nD τ).loc main_arg1) ↦{fifth1} G 1)
          ∗ (((c : Thread nD τ).loc main_arg1) ↦{fifth2} G 2) ∗ (((c : Thread nD τ).loc main_arg1) ↦{fifth3} G 3)
          ∗ (((c : Thread nD τ).loc main_arg1) ↦{fifth4} G 4) ∗ (((c : Thread nD τ).loc main_v1) ↦{fullShare} G 5)
          ∗ (((c : Thread nD τ).loc main_v2) ↦{fullShare} G 6)) := by
  unfold Dat.arrays
  rw [bigSep_W1, (arr_whole1 0).set_eq_univ, (arr_whole1 5).set_eq_univ, (arr_whole1 6).set_eq_univ]
  rfl

/-- The three buffers behind those arrays, each whole at contents `V`. -/
theorem arrBufs1_chain (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v1) ↦{fullShare} V main_v1)
          ∗ (((c : Thread nD τ).loc main_v2) ↦{fullShare} V main_v2)) := by
  unfold Pipeline.arrBufs
  exact bigSep_eq_bigSepL_of_eq [main_arg1, main_v1, main_v2] (by decide) (by decide) _

/-! ## Entering and leaving the second call -/

/-- ENTRY. Every unscoped buffer held whole at `W1 c` is: the second call's seven arrays at their entry contents
    (the square array dealt into fifths), and the unscoped buffers that are no array of the call. -/
theorem enter1 (c : Dev nD) :
    (StableHlo.held (c : Thread nD τ) (Pipeline.ucRefs τ sig) (W1 c) : sProp 𝕄)
      ⊢ iprop((dat1 (atRefs W1) c).arrays ((dat1 (atRefs W1) c).arrAt · 0)
          ∗ Pipeline.unscopedRest (Ix := Unit) (Name := ℕ) (U := UR sig nD τ) (Lvl := ℕ) spec1 c (atRefs W1 c)) := by
  rw [← Pipeline.unscopedBufs_held c (W1 c), Pipeline.unscopedBufs_split₀ cfgs 1 winFacts₀1.arr_unscoped c (atRefs W1 c)]
  refine sep_mono ?_ .rfl
  show (Pipeline.arrBufs (Ix := Unit) (Name := ℕ) (U := UR sig nD τ) (Lvl := ℕ) spec1 c (atRefs W1 c) : sProp 𝕄) ⊢ _
  rw [arrBufs1_chain, arrays1_chain]
  refine (sep_mono (deal5 _ _) .rfl).trans ?_
  iintro ⟨⟨H0, H1, H2, H3, H4⟩, H5, H6⟩
  isplitl [H0]; · iexact H0
  isplitl [H1]; · iexact H1
  isplitl [H2]; · iexact H2
  isplitl [H3]; · iexact H3
  isplitl [H4]; · iexact H4
  isplitl [H5]; · iexact H5
  iexact H6

/-- EXIT. The seven arrays at what the pipeline leaves — the six inputs' as entered, the fifths of the square array
    joined back; the output's at its folded write-backs — beside the untouched rest are every unscoped buffer held
    whole at any valuation `W2 c` that has the output there and agrees with `W1 c` elsewhere. -/
theorem leave1 (c : Dev nD) (hout : W2 c main_v2 = (dat1 (atRefs W1) c).arrAt 6 cfg1.N)
    (hne : ∀ b : Ref sig .tc, b ≠ main_v2 → W2 c b = W1 c b) :
    (iprop((dat1 (atRefs W1) c).arrays ((dat1 (atRefs W1) c).arrAt · cfg1.N)
          ∗ Pipeline.unscopedRest (Ix := Unit) (Name := ℕ) (U := UR sig nD τ) (Lvl := ℕ) spec1 c (atRefs W1 c)) : sProp 𝕄)
      ⊢ StableHlo.held (c : Thread nD τ) (Pipeline.ucRefs τ sig) (W2 c) := by
  rw [← Pipeline.unscopedBufs_held c (W2 c), Pipeline.unscopedBufs_split₀ cfgs 1 winFacts₀1.arr_unscoped c (atRefs W2 c)]
  refine sep_mono ?_ (Entails.of_eq ?_)
  · show _ ⊢ (Pipeline.arrBufs (Ix := Unit) (Name := ℕ) (U := UR sig nD τ) (Lvl := ℕ) spec1 c (atRefs W2 c) : sProp 𝕄)
    rw [arrBufs1_chain, arrays1_chain,
      (dat1 (atRefs W1) c).arrAt_in 0 rfl, (dat1 (atRefs W1) c).arrAt_in 1 rfl, (dat1 (atRefs W1) c).arrAt_in 2 rfl,
      (dat1 (atRefs W1) c).arrAt_in 3 rfl, (dat1 (atRefs W1) c).arrAt_in 4 rfl, (dat1 (atRefs W1) c).arrAt_in 5 rfl]
    show (iprop((((c : Thread nD τ).loc main_arg1) ↦{fifth0} W1 c main_arg1) ∗ (((c : Thread nD τ).loc main_arg1) ↦{fifth1} W1 c main_arg1)
          ∗ (((c : Thread nD τ).loc main_arg1) ↦{fifth2} W1 c main_arg1) ∗ (((c : Thread nD τ).loc main_arg1) ↦{fifth3} W1 c main_arg1)
          ∗ (((c : Thread nD τ).loc main_arg1) ↦{fifth4} W1 c main_arg1) ∗ (((c : Thread nD τ).loc main_v1) ↦{fullShare} W1 c main_v1)
          ∗ (((c : Thread nD τ).loc main_v2) ↦{fullShare} (dat1 (atRefs W1) c).arrAt 6 cfg1.N)) : sProp 𝕄)
        ⊢ iprop((((c : Thread nD τ).loc main_arg1) ↦{fullShare} W2 c main_arg1) ∗ (((c : Thread nD τ).loc main_v1) ↦{fullShare} W2 c main_v1)
          ∗ (((c : Thread nD τ).loc main_v2) ↦{fullShare} W2 c main_v2))
    rw [hne main_arg1 (by decide), hne main_v1 (by decide), hout]
    iintro ⟨H0, H1, H2, H3, H4, H5, H6⟩
    isplitl [H0 H1 H2 H3 H4]
    · iapply (join5 _ _)
      isplitl [H0]; · iexact H0
      isplitl [H1]; · iexact H1
      isplitl [H2]; · iexact H2
      isplitl [H3]; · iexact H3
      iexact H4
    isplitl [H5]; · iexact H5
    iexact H6
  · unfold Pipeline.unscopedRest
    exact bigSep_congr fun b hb => by
      rw [show atRefs W2 c b = atRefs W1 c b from
        hne b fun h => (Finset.mem_sdiff.mp hb).2 (h ▸ Finset.mem_image.mpr ⟨6, Finset.mem_univ _, rfl⟩)]

/-! ## The two calls as segments -/

set_option backward.isDefEq.respectTransparency.types false in
/-- THE FIRST CALL, entered from every unscoped buffer at `W0` and left at `W1`, which has the bf16 product array
    at what the pipeline's write-backs leave and every other buffer as entered. Its four arrays are distinct
    buffers taken whole out of the unscoped buffers and put back; the generator register goes into the pipeline's
    invariant and comes back; nothing is owed; the kernel names no semaphore of its own. -/
def reg0 (hout0 : ∀ c, W1 c main_v1 = (dat0 (atRefs W0) c).arrAt 3 cfg0.N)
    (hne0 : ∀ c (b : Ref sig .tc), b ≠ main_v1 → W1 c b = W0 c b) :
    Pipeline.RegionSeg (pcfgs (F := F)) adm (pdats W0 W1) () defs₀ 𝒱₀ L lv 0 where
  win := launch0.win.to₀
  block_pos := launch0.block_pos
  stage_whole := launch0.stage_whole
  K := PEmpty
  osem k := k.elim
  ho := Pipeline.OwnSemFacts.none _
  hbody c := (obligation0 (atRefs W0) c).loose
  hwaits := Pipeline.hwaits_of_owed_zero _ _ _ _ L lv 0 fun _ _ => rfl
  pre c := iprop(StableHlo.held (c : Thread nD τ) (Pipeline.ucRefs τ sig) (W0 c) ∗ Rest c)
  post c := iprop(StableHlo.held (c : Thread nD τ) (Pipeline.ucRefs τ sig) (W1 c) ∗ Rest c)
  X c := iprop(∃ r, prngReg c r)
  Y c := iprop(∃ r, prngReg c r)
  Z c := Pipeline.unscopedRest (Ix := Unit) (Name := ℕ) (U := UR sig nD τ) (Lvl := ℕ) spec0 c (atRefs W0 c)
  hentry c := by
    rw [Pipeline.ownSems0_none]
    have hsplit := Pipeline.arrays_of_unscopedBufs (p := 0) (pcfgs (F := F)) adm (pdats W0 W1) launch0.win launch0.arr_whole c
      ((pdats W0 W1 0 c).share_full fun _ => rfl) (atRefs W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W0 W1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats W0 W1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats W0 W1) ((pdats W0 W1 0 c).share_full fun _ => rfl)
      (atRefs W0 c) (atRefs W1 c) ((pdats W0 W1 0 c).arrAt · cfg0.N)
      (fun w => by
        fin_cases w
        · exact ((pdats W0 W1 0 c).arrAt_in 0 rfl _).trans (hne0 c main_arg0 (by decide)).symm
        · exact ((pdats W0 W1 0 c).arrAt_in 1 rfl _).trans (hne0 c main_arg2 (by decide)).symm
        · exact ((pdats W0 W1 0 c).arrAt_in 2 rfl _).trans (hne0 c main_v0 (by decide)).symm
        · exact (hout0 c).symm)
      (fun b hb => hne0 c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL, entered from every unscoped buffer at `W1` and left at `W2`, which has the result array at
    what the pipeline's write-backs leave and every other buffer as entered. The square array enters dealt into
    fifths, one per window on it, and leaves joined (`enter1`, `leave1`); the rest as for the first call. -/
def reg1 (hout1 : ∀ c, W2 c main_v2 = (dat1 (atRefs W1) c).arrAt 6 cfg1.N)
    (hne1 : ∀ c (b : Ref sig .tc), b ≠ main_v2 → W2 c b = W1 c b) :
    Pipeline.RegionSeg (pcfgs (F := F)) adm (pdats W0 W1) () defs₀ 𝒱₀ L lv 1 where
  win := winFacts₀1
  block_pos := block_pos1
  stage_whole := stage_whole1
  K := PEmpty
  osem k := k.elim
  ho := Pipeline.OwnSemFacts.none _
  hbody c := (obligation1 (atRefs W1) c).loose
  hwaits := Pipeline.hwaits_of_owed_zero _ _ _ _ L lv 1 fun _ _ => rfl
  pre c := iprop(StableHlo.held (c : Thread nD τ) (Pipeline.ucRefs τ sig) (W1 c) ∗ Rest c)
  post c := iprop(StableHlo.held (c : Thread nD τ) (Pipeline.ucRefs τ sig) (W2 c) ∗ Rest c)
  X c := iprop(∃ r, prngReg c r)
  Y c := iprop(∃ r, prngReg c r)
  Z c := Pipeline.unscopedRest (Ix := Unit) (Name := ℕ) (U := UR sig nD τ) (Lvl := ℕ) spec1 c (atRefs W1 c)
  hentry c := by
    rw [Pipeline.ownSems0_none]
    have hsplit := enter1 W1 c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W0 W1 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats W0 W1 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 W1 W2 c (hout1 c) (hne1 c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Frm

end
-- ==== Proof.FrameB.Run.lean ====
/-
  The whole program run: the reshape of the bias to a row, the first pallas_call, the second. Between items the
  core holds every unscoped buffer whole at a valuation: the launch memory; then that with the row written; then
  that with the bf16 product array at what the first call's write-backs leave; then that with the result array at
  what the second call's leave. Every weakly fair execution terminates, and in the final memory the result array
  holds the last of these and the four arguments hold what they were launched with (no item writes one).
-/
import proofs.«174017_g15564961480952_cont_week2b_1514_4_alg».proof.Proof.FrameB.Segs
import proofs.«174017_g15564961480952_cont_week2b_1514_4_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the first call leaves in the bf16 product array: its write-backs folded over the five points, from the
    contents the call is entered at (the launch memory with the row written). -/
def harr (c : Dev nD) : Buf (Elt F) ((c : Thread nD τ).loc main_v1) := (dat0 (atRefs (Gen.V1 m)) c).arrAt 3 cfg0.N

/-- The core's buffers after the first call. -/
abbrev Wmid (c : Dev nD) : Valuation τ sig (Elt F) := Function.update (Gen.V1 m c) main_v1 (harr m c)

/-- What the second call leaves in the result array: its write-backs folded over the 25 points. -/
def oarr (c : Dev nD) : Buf (Elt F) ((c : Thread nD τ).loc main_v2) := (dat1 (atRefs (Wmid m)) c).arrAt 6 cfg1.N

/-- The core's buffers after the second call. -/
abbrev Wend (c : Dev nD) : Valuation τ sig (Elt F) := Function.update (Wmid m c) main_v2 (oarr m c)

theorem Wmid_v1 (c : Dev nD) : Wmid m c main_v1 = harr m c := by simp only [Wmid, Function.update_self]
theorem Wmid_of (c : Dev nD) (r : Ref sig .tc) (h : r ≠ main_v1) : Wmid m c r = Gen.V1 m c r := by
  simp only [Wmid, Function.update_of_ne (StableHlo.devRef_ne_of_ne h : (Proc.devRef .tc r : DevRef τ sig) ≠ Proc.devRef .tc main_v1)]
theorem Wend_v2 (c : Dev nD) : Wend m c main_v2 = oarr m c := by simp only [Wend, Function.update_self]
theorem Wend_of (c : Dev nD) (r : Ref sig .tc) (h : r ≠ main_v2) : Wend m c r = Wmid m c r := by
  simp only [Wend, Function.update_of_ne (StableHlo.devRef_ne_of_ne h : (Proc.devRef .tc r : DevRef τ sig) ≠ Proc.devRef .tc main_v2)]

/-- An argument reaches the end as launched: the reshape writes only the row, the calls only their output arrays. -/
theorem Wend_arg (c : Dev nD) (r : Ref sig .tc) (h2 : r ≠ main_v2) (h1 : r ≠ main_v1) (h0 : r ∉ Gen.hostOps0_W) :
    Wend m c r = m ((c : Thread nD τ).loc r) :=
  (Wend_of m c r h2).trans <| (Wmid_of m c r h1).trans <| (Gen.V1_of m c r h0).trans rfl

/-! ## @main as segments -/

/-- The reshape as a segment: the unscoped buffers from the launch memory to that with the row written. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) Rest

/-- @main's three items in order. -/
abbrev segs : List (Pipeline.Seg (pcfgs (F := F)) adm (pdats (Gen.V1 m) (Wmid m)) () defs₀ 𝒱₀ L lv) :=
  [ .host (hseg0 m),
    .region (reg0 (Gen.V1 m) (Wmid m) (fun c => Wmid_v1 m c) (fun c b h => Wmid_of m c b h)),
    .region (reg1 (Gen.V1 m) (Wmid m) (Wend m) (fun c => Wend_v2 m c) (fun c b h => Wend_of m c b h)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the `owes`. -/
abbrev Tlast (c : Dev nD) : sProp 𝕄 := iprop(StableHlo.held (c : Thread nD τ) (Pipeline.ucRefs τ sig) (Wend m c) ∗ ∃ r, prngReg c r)

/-! ## The run -/

set_option backward.isDefEq.respectTransparency.types false in
/-- From any memory with zero counters every weakly fair execution of @main terminates, nothing faulting, with
    the result array at `oarr` and each argument array as launched. -/
theorem run_all : θ_run defs (onTc (τ := τ) (main (F := F))) ⟨m, fun _ => 0, ρ⟩ (fun r => ∀ c : Dev nD,
      r.2.mem ((c.tc : Thread nD τ).loc main_v2) = oarr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats (Gen.V1 m) (Wmid m)) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c)) (Tₙ := Tlast m)
    (hch := ⟨fun _ => .rfl, fun _ => .rfl, fun _ => .rfl, fun c => by
      show (iprop(StableHlo.held (c : Thread nD τ) (Pipeline.ucRefs τ sig) (Wend m c) ∗ Rest c) : sProp 𝕄)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c =>
      ⟨(h c _ (mem_uc main_v2 (by decide))).trans (Wend_v2 m c),
       (h c _ (mem_uc main_arg0 (by decide))).trans (Wend_arg m c main_arg0 (by decide) (by decide) (by decide)),
       (h c _ (mem_uc main_arg1 (by decide))).trans (Wend_arg m c main_arg1 (by decide) (by decide) (by decide)),
       (h c _ (mem_uc main_arg2 (by decide))).trans (Wend_arg m c main_arg2 (by decide) (by decide) (by decide)),
       (h c _ (mem_uc main_arg3 (by decide))).trans (Wend_arg m c main_arg3 (by decide) (by decide) (by decide))⟩)

/-- The frame: every execution terminates, nothing faults, the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Frm

end
-- ==== Proof.FrameI.Region0.lean ====
/-
  The first pallas_call (grid of 5 points, one per block of 2000 rows): at a point the body reads the point's
  2000×256 block of the first operand, the whole 256×256 second operand and the 1×256 row, and stores into the
  output's 2000×256 block the matrix product of the first two (accumulated from zero) plus the row broadcast
  down the block, narrowed to bf16. Stated at ANY contents `V` of the core's buffers when the call is entered
  and at any float instance: what each window's staging buffer holds before and after the body, the body's
  triple, and from them the obligation the pipeline asks of the body at every point.
-/
import proofs.«174017_g15564961480952_cont_week2b_1514_4_alg».proof.Proof.Gen.KernelIdeal.Launch
import proofs.«174017_g15564961480952_cont_week2b_1514_4_alg».proof.Proof.Gen.KernelIdeal.Skeleton
import proofs.«174017_g15564961480952_cont_week2b_1514_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- The block of window `w` at grid point `t`: the window's rectangle at that point read out of the window's
    array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window that the body leaves as it found it holds its block at every point, whether the pipeline
    fetched it at that point or kept it from the point before (then the block index has not moved). Stated window
    by window: only at a literal window does the window's block type reduce to its literal shape. -/

/-- The 2000-row block of the first operand, which moves with the point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The whole second operand, fetched once. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The row, fetched once. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

/-- The whole 2000×256 block, the whole 256×256 operand, the whole 1×256 row: the three rectangles the body loads,
    and (the first again, over the bf16 buffer) the one it stores through. -/
abbrev whole2000 : Rect S2000x256 := Rect.unit (s := S2000x256) ![0, 0] S2000x256.size inb_S2000x256_S2000x256_0_0
abbrev whole256 : Rect S256x256 := Rect.unit (s := S256x256) ![0, 0] S256x256.size inb_S256x256_S256x256_0_0
abbrev wholeRow : Rect S1x256 := Rect.unit (s := S1x256) ![0, 0] S1x256.size inb_S1x256_S1x256_0_0

/-- The output window's staging buffer after the body, as a function of the three input blocks: the one store's
    payload (product plus broadcast row, narrowed) laid over the whole buffer. -/
def hblock (x : Vec F S2000x256 .f32) (w : Vec F S256x256 .f32) (b : Vec F S1x256 .f32) : Vec F S2000x256 .bf16 :=
  View.canon [⟨whole2000, k0_pay1 (View.ld x whole2000) (View.ld w whole256) (View.ld b wholeRow)⟩]

/-- The one store covers the buffer: its rectangle is the buffer. -/
theorem hblock_cover (p : Vec F S2000x256 .bf16) (y : S2000x256.Idx) :
    ∃ pc ∈ ([⟨whole2000, p⟩] : List (View.Piece (Elt F) S2000x256 .bf16)), y ∈ pc.1.set :=
  View.cover_of_tiled [⟨whole2000, p⟩] S2000x256.size (by rfl) y

/-! ## The body's triple -/

set_option maxHeartbeats 1000000 in
/-- The body, on whole staging buffers holding `x`, `w`, `b` and an output buffer holding anything, runs to its
    end with the inputs as they were and the output at `hblock x w b`. The grid coordinate it is passed is not read. -/
theorem body0_run (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .bf16) (harg4 : arg4.IsWhole)
    (x : Vec F S2000x256 .f32) (w : Vec F S256x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (hblock x w b)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (hblock_cover _)

/-! ## The proof data of the call -/

/-- What the pipeline is told of this call on core `c`: its windows' arrays hold `V`; after the body each input's
    buffer holds its block and the output's holds `hblock` of the three blocks; the body uses nothing besides its
    windows (the scoped buffers of other calls and the generator register ride along untouched), owes nothing, and
    every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => hblock (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = hblock (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-! ## The obligation at a point -/

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it wants back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers hold their blocks, so the body's triple applies; the invariant and what
    the core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0_run c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation of the body, at every point. -/
theorem obligation0 (c : Dev nD) : BodyObligation (dat0 (F := F) V c) (defs₀ (F := F)) Variants.none () Set.univ := fun t => by
  rw [bigSep_W0, bigSep_W0]
  exact body0_at V c t

end Cert.KernelIdeal.Frm

end
-- ==== Proof.FrameI.Region1.lean ====
/-
  The second pallas_call (grid of 25 points, one per block of 400 output rows): at a point the body reads five
  80×10000 row blocks of the square operand (five windows on ONE array, at consecutive block indices 5t … 5t+4)
  and the whole 10000×256 right operand, and stores into the output's 400×256 block, 80 rows at a time, the
  matrix product of each row block (narrowed to bf16) with the right operand, accumulated from zero and clamped
  below at zero. Stated at ANY contents `V` of the core's buffers when the call is entered and at any float
  instance: what each window's staging buffer holds before and after the body, the body's triple, and from them
  the obligation the pipeline asks of the body at every point. The five windows on one array hold it at a fifth
  of its share each.
-/
import proofs.«174017_g15564961480952_cont_week2b_1514_4_alg».proof.Proof.Gen.KernelIdeal.Launch
import proofs.«174017_g15564961480952_cont_week2b_1514_4_alg».proof.Proof.Gen.KernelIdeal.Skeleton
import proofs.«174017_g15564961480952_cont_week2b_1514_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- The block of window `w` at grid point `t`: the window's rectangle at that point read out of the window's
    array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window that the body leaves as it found it holds its block at every point, whether the pipeline
    fetched it at that point or kept it from the point before (then the block index has not moved). Stated window
    by window: only at a literal window does the window's block type reduce to its literal shape. -/

/-- Row block 0 of the five (block index 5t+0), fetched at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Row block 1 of the five (block index 5t+1), fetched at every point. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Row block 2 of the five (block index 5t+2), fetched at every point. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Row block 3 of the five (block index 5t+3), fetched at every point. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- Row block 4 of the five (block index 5t+4), fetched at every point. -/
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
/-- The whole right operand, fetched once. -/
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

/-- A whole 80×10000 row block and the whole right operand (what the body loads), and the five 80-row bands of the
    400×256 output buffer (what it stores through). -/
abbrev wholeRows : Rect S80x10000 := Rect.unit (s := S80x10000) ![0, 0] S80x10000.size inb_S80x10000_S80x10000_0_0
abbrev wholeRight : Rect S10000x256 := Rect.unit (s := S10000x256) ![0, 0] S10000x256.size inb_S10000x256_S10000x256_0_0
abbrev band0 : Rect S400x256 := Rect.unit (s := S400x256) ![0, 0] S80x256.size inb_S400x256_S80x256_0_0
abbrev band1 : Rect S400x256 := Rect.unit (s := S400x256) ![80, 0] S80x256.size inb_S400x256_S80x256_80_0
abbrev band2 : Rect S400x256 := Rect.unit (s := S400x256) ![160, 0] S80x256.size inb_S400x256_S80x256_160_0
abbrev band3 : Rect S400x256 := Rect.unit (s := S400x256) ![240, 0] S80x256.size inb_S400x256_S80x256_240_0
abbrev band4 : Rect S400x256 := Rect.unit (s := S400x256) ![320, 0] S80x256.size inb_S400x256_S80x256_320_0

/-- The output window's staging buffer after the body, as a function of the five row blocks and the right operand:
    the five stores' payloads (each the clamped product of one row block with the right operand) laid over their
    bands, the last store first. -/
def oblock (a0 a1 a2 a3 a4 : Vec F S80x10000 .f32) (h : Vec F S10000x256 .bf16) : Vec F S400x256 .f32 :=
  View.canon [⟨band4, k1_pay1 (k1_pay2 (View.ld h wholeRight)) (View.ld a4 wholeRows)⟩,
    ⟨band3, k1_pay6 (View.ld h wholeRight) (View.ld a3 wholeRows)⟩,
    ⟨band2, k1_pay5 (View.ld h wholeRight) (View.ld a2 wholeRows)⟩,
    ⟨band1, k1_pay4 (View.ld h wholeRight) (View.ld a1 wholeRows)⟩,
    ⟨band0, k1_pay3 (View.ld h wholeRight) (View.ld a0 wholeRows)⟩]

/-- The five bands tile the buffer, so the five stores cover it. -/
theorem oblock_cover (p4 p3 p2 p1 p0 : Vec F S80x256 .f32) (y : S400x256.Idx) :
    ∃ pc ∈ ([⟨band4, p4⟩, ⟨band3, p3⟩, ⟨band2, p2⟩, ⟨band1, p1⟩, ⟨band0, p0⟩] : List (View.Piece (Elt F) S400x256 .f32)), y ∈ pc.1.set :=
  View.cover_of_tiled [⟨band4, p4⟩, ⟨band3, p3⟩, ⟨band2, p2⟩, ⟨band1, p1⟩, ⟨band0, p0⟩] S80x256.size (by rfl) y

/-! ## The body's triple -/

set_option maxHeartbeats 4000000 in
/-- The body, on whole staging buffers holding the five row blocks and the right operand and an output buffer
    holding anything, runs to its end with the inputs as they were and the output at `oblock` of them. The grid
    coordinate it is passed is not read. -/
theorem body1_run (c : Dev nD) (E : Set ℕ) (i : grid1.Coords)
    (arg1 : Memref sig .tc .vmem S80x10000 .f32) (harg1 : arg1.IsWhole) (arg2 : Memref sig .tc .vmem S80x10000 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S10000x256 .bf16) (harg6 : arg6.IsWhole)
    (arg7 : Memref sig .tc .vmem S400x256 .f32) (harg7 : arg7.IsWhole)
    (a0 a1 a2 a3 a4 : Vec F S80x10000 .f32) (h : Vec F S10000x256 .bf16) (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4 ∗ owns (c : Thread nD τ) arg6 fullShare h
        ∗ (∃ d, owns (c : Thread nD τ) arg7 fullShare d)
        ∗ (iprop(owns (c : Thread nD τ) arg1 fullShare a0 ∗ owns (c : Thread nD τ) arg2 fullShare a1 ∗ owns (c : Thread nD τ) arg3 fullShare a2
            ∗ owns (c : Thread nD τ) arg4 fullShare a3 ∗ owns (c : Thread nD τ) arg5 fullShare a4 ∗ owns (c : Thread nD τ) arg6 fullShare h
            ∗ owns (c : Thread nD τ) arg7 fullShare (oblock a0 a1 a2 a3 a4 h)) -∗ K ⟨⟩))
      ⊢ wp frame (wpE (defs₀ (F := F)) Variants.none c none) E (cc1__agg_kernel i arg1 harg1 arg2 harg2 arg3 harg3 arg4 harg4 arg5 harg5 arg6 harg6 arg7 harg7) K := by
  simp only [cc1__agg_kernel_eq_skeleton]; unfold cc1__agg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (oblock_cover _ _ _ _ _)

/-! ## The proof data of the call -/

/-- The five shares the one square array is held at, one per window on it: a fifth each, dealt by halving the
    remainder (left half to the window, right half on to the next), so that together they are the whole. -/
abbrev fifth0 : PosShare TreeShare := fullShare.left
abbrev fifth1 : PosShare TreeShare := fullShare.right.left
abbrev fifth2 : PosShare TreeShare := fullShare.right.right.left
abbrev fifth3 : PosShare TreeShare := fullShare.right.right.right.left
abbrev fifth4 : PosShare TreeShare := fullShare.right.right.right.right

/-- What the pipeline is told of this call on core `c`: its windows' arrays hold `V`; after the body each input's
    buffer holds its block and the output's holds `oblock` of the six blocks; the body uses nothing besides its
    windows, owes nothing; the square array is held a fifth per window on it, the right operand and the output whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => oblock (blk1 V c 0 t) (blk1 V c 1 t) (blk1 V c 2 t) (blk1 V c 3 t) (blk1 V c 4 t) (blk1 V c 5 t)
  Φ _ := Pipeline.ΦA spec1 c
  q w := match w with
    | ⟨0, _⟩ => fifth0
    | ⟨1, _⟩ => fifth1
    | ⟨2, _⟩ => fifth2
    | ⟨3, _⟩ => fifth3
    | ⟨4, _⟩ => fifth4
    | ⟨5, _⟩ => fullShare
    | ⟨6, _⟩ => fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) :
    (dat1 V c).after 6 t = oblock (blk1 V c 0 t) (blk1 V c 1 t) (blk1 V c 2 t) (blk1 V c 3 t) (blk1 V c 4 t) (blk1 V c 5 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d
theorem dat1_before5 (c : Dev nD) (t : Fin cfg1.N) (d) : (dat1 V c).before 5 t d = blk1 V c 5 t :=
  found1_5 V (dat1 V c) (dat1_A V c 5) (dat1_after5 V c) t d

/-! ## The obligation at a point -/

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it wants back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- At any point the six input buffers hold their blocks, so the body's triple applies; the invariant and what
    the core owes pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body1_run c Set.univ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation of the body, at every point. -/
theorem obligation1 (c : Dev nD) : BodyObligation (dat1 (F := F) V c) (defs₀ (F := F)) Variants.none () Set.univ := fun t => by
  rw [bigSep_W1, bigSep_W1]
  exact body1_at V c t

end Cert.KernelIdeal.Frm

end
-- ==== Proof.FrameI.Segs.lean ====
/-
  The two pallas_calls as segments of @main, each between two states of the core's thread: "every unscoped
  buffer held whole at a valuation, the generator register at some state, nothing owed". A call is entered from
  the valuation `Wa` and left at `Wb`, which differs from `Wa` only at the call's output array, holding there
  what the pipeline's write-backs leave. The first call's arrays are four distinct buffers, each held whole. The
  second call reads ONE square array through five windows: at entry that array's full share is dealt into
  fifths, one per window (halving the remainder four times), and at exit the five fifths, all still at the
  entry contents since an input window writes nothing back, are joined into the whole again.
-/
import proofs.«174017_g15564961480952_cont_week2b_1514_4_alg».proof.Proof.FrameI.Region0
import proofs.«174017_g15564961480952_cont_week2b_1514_4_alg».proof.Proof.FrameI.Region1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What rides along, and the proof data of both calls -/

abbrev 𝒱₀ : Variants := Variants.none
/-- No core owes another anything: no level is assigned. -/
abbrev L : GSem nD τ sig → Finset Unit := fun _ => ∅
abbrev lv : GSem nD τ sig → Unit → ℕ := fun _ _ => 0
/-- No call has a prefetched table. -/
abbrev adm : (p : Fin 2) → (pcfgs (F := F) p).Adm := fun p => (cfgs p).toPCfg_adm

/-- Beside the buffers, through every segment: the generator register at some state and the core owing nothing. -/
abbrev Rest (c : Dev nD) : sProp 𝕄 := iprop((∃ r, prngReg c r) ∗ ∃ W, owes (c : Thread nD τ) (0 : CellTallies nD τ sig Unit) W)

/-- A valuation of the core's buffers read at the TensorCore's references. -/
abbrev atRefs (W : Dev nD → Valuation τ sig (Elt F)) : (c : Dev nD) → (b : Ref sig .tc) → Buf (Elt F) ((c : Thread nD τ).loc b) :=
  fun c b => W c b

variable (W0 W1 W2 : Dev nD → Valuation τ sig (Elt F))

/-- Both calls' proof data: the first call's at the valuation it is entered from, the second's at its own. -/
def pdats : (p : Fin 2) → (c : Dev nD) → Dat τ (Elt F) Unit ℕ (UR sig nD τ) ℕ (Pipeline.pin (pcfgs (F := F)) adm p) c
  | ⟨0, _⟩ => fun c => dat0 (atRefs W0) c
  | ⟨1, _⟩ => fun c => dat1 (atRefs W1) c

/-! ## The fifths of a buffer -/

/-- A buffer held whole is the same buffer held five times at a fifth: halve, then halve the right half, … -/
theorem deal5 (ℓ : Loc nD τ sig) (f : Buf (Elt F) ℓ) :
    (ℓ ↦{fullShare} f : sProp 𝕄)
      ⊢ iprop((ℓ ↦{fifth0} f) ∗ (ℓ ↦{fifth1} f) ∗ (ℓ ↦{fifth2} f) ∗ (ℓ ↦{fifth3} f) ∗ (ℓ ↦{fifth4} f)) :=
  (pointsTo_share (PosShare.mem_left_op_right fullShare)).1.trans <| sep_mono .rfl <|
  (pointsTo_share (PosShare.mem_left_op_right fullShare.right)).1.trans <| sep_mono .rfl <|
  (pointsTo_share (PosShare.mem_left_op_right fullShare.right.right)).1.trans <| sep_mono .rfl <|
  (pointsTo_share (PosShare.mem_left_op_right fullShare.right.right.right)).1

/-- and back: five fifths of one buffer at one contents are the buffer whole. -/
theorem join5 (ℓ : Loc nD τ sig) (f : Buf (Elt F) ℓ) :
    (iprop((ℓ ↦{fifth0} f) ∗ (ℓ ↦{fifth1} f) ∗ (ℓ ↦{fifth2} f) ∗ (ℓ ↦{fifth3} f) ∗ (ℓ ↦{fifth4} f)) : sProp 𝕄)
      ⊢ (ℓ ↦{fullShare} f) :=
  (sep_mono .rfl <| (sep_mono .rfl <| (sep_mono .rfl
      (pointsTo_share (PosShare.mem_left_op_right fullShare.right.right.right)).2).trans
      (pointsTo_share (PosShare.mem_left_op_right fullShare.right.right)).2).trans
      (pointsTo_share (PosShare.mem_left_op_right fullShare.right)).2).trans
      (pointsTo_share (PosShare.mem_left_op_right fullShare)).2

/-! ## The second call's arrays, window by window -/

/-- The second call's seven windowed arrays at contents `G`: the square array five times at a fifth, the right
    operand and the output whole. -/
theorem arrays1_chain (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fifth0} G 0) ∗ (((c : Thread nD τ).loc main_arg1) ↦{fifth1} G 1)
          ∗ (((c : Thread nD τ).loc main_arg1) ↦{fifth2} G 2) ∗ (((c : Thread nD τ).loc main_arg1) ↦{fifth3} G 3)
          ∗ (((c : Thread nD τ).loc main_arg1) ↦{fifth4} G 4) ∗ (((c : Thread nD τ).loc main_v1) ↦{fullShare} G 5)
          ∗ (((c : Thread nD τ).loc main_v2) ↦{fullShare} G 6)) := by
  unfold Dat.arrays
  rw [bigSep_W1, (arr_whole1 0).set_eq_univ, (arr_whole1 5).set_eq_univ, (arr_whole1 6).set_eq_univ]
  rfl

/-- The three buffers behind those arrays, each whole at contents `V`. -/
theorem arrBufs1_chain (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v1) ↦{fullShare} V main_v1)
          ∗ (((c : Thread nD τ).loc main_v2) ↦{fullShare} V main_v2)) := by
  unfold Pipeline.arrBufs
  exact bigSep_eq_bigSepL_of_eq [main_arg1, main_v1, main_v2] (by decide) (by decide) _

/-! ## Entering and leaving the second call -/

/-- ENTRY. Every unscoped buffer held whole at `W1 c` is: the second call's seven arrays at their entry contents
    (the square array dealt into fifths), and the unscoped buffers that are no array of the call. -/
theorem enter1 (c : Dev nD) :
    (StableHlo.held (c : Thread nD τ) (Pipeline.ucRefs τ sig) (W1 c) : sProp 𝕄)
      ⊢ iprop((dat1 (atRefs W1) c).arrays ((dat1 (atRefs W1) c).arrAt · 0)
          ∗ Pipeline.unscopedRest (Ix := Unit) (Name := ℕ) (U := UR sig nD τ) (Lvl := ℕ) spec1 c (atRefs W1 c)) := by
  rw [← Pipeline.unscopedBufs_held c (W1 c), Pipeline.unscopedBufs_split₀ cfgs 1 winFacts₀1.arr_unscoped c (atRefs W1 c)]
  refine sep_mono ?_ .rfl
  show (Pipeline.arrBufs (Ix := Unit) (Name := ℕ) (U := UR sig nD τ) (Lvl := ℕ) spec1 c (atRefs W1 c) : sProp 𝕄) ⊢ _
  rw [arrBufs1_chain, arrays1_chain]
  refine (sep_mono (deal5 _ _) .rfl).trans ?_
  iintro ⟨⟨H0, H1, H2, H3, H4⟩, H5, H6⟩
  isplitl [H0]; · iexact H0
  isplitl [H1]; · iexact H1
  isplitl [H2]; · iexact H2
  isplitl [H3]; · iexact H3
  isplitl [H4]; · iexact H4
  isplitl [H5]; · iexact H5
  iexact H6

/-- EXIT. The seven arrays at what the pipeline leaves — the six inputs' as entered, the fifths of the square array
    joined back; the output's at its folded write-backs — beside the untouched rest are every unscoped buffer held
    whole at any valuation `W2 c` that has the output there and agrees with `W1 c` elsewhere. -/
theorem leave1 (c : Dev nD) (hout : W2 c main_v2 = (dat1 (atRefs W1) c).arrAt 6 cfg1.N)
    (hne : ∀ b : Ref sig .tc, b ≠ main_v2 → W2 c b = W1 c b) :
    (iprop((dat1 (atRefs W1) c).arrays ((dat1 (atRefs W1) c).arrAt · cfg1.N)
          ∗ Pipeline.unscopedRest (Ix := Unit) (Name := ℕ) (U := UR sig nD τ) (Lvl := ℕ) spec1 c (atRefs W1 c)) : sProp 𝕄)
      ⊢ StableHlo.held (c : Thread nD τ) (Pipeline.ucRefs τ sig) (W2 c) := by
  rw [← Pipeline.unscopedBufs_held c (W2 c), Pipeline.unscopedBufs_split₀ cfgs 1 winFacts₀1.arr_unscoped c (atRefs W2 c)]
  refine sep_mono ?_ (Entails.of_eq ?_)
  · show _ ⊢ (Pipeline.arrBufs (Ix := Unit) (Name := ℕ) (U := UR sig nD τ) (Lvl := ℕ) spec1 c (atRefs W2 c) : sProp 𝕄)
    rw [arrBufs1_chain, arrays1_chain,
      (dat1 (atRefs W1) c).arrAt_in 0 rfl, (dat1 (atRefs W1) c).arrAt_in 1 rfl, (dat1 (atRefs W1) c).arrAt_in 2 rfl,
      (dat1 (atRefs W1) c).arrAt_in 3 rfl, (dat1 (atRefs W1) c).arrAt_in 4 rfl, (dat1 (atRefs W1) c).arrAt_in 5 rfl]
    show (iprop((((c : Thread nD τ).loc main_arg1) ↦{fifth0} W1 c main_arg1) ∗ (((c : Thread nD τ).loc main_arg1) ↦{fifth1} W1 c main_arg1)
          ∗ (((c : Thread nD τ).loc main_arg1) ↦{fifth2} W1 c main_arg1) ∗ (((c : Thread nD τ).loc main_arg1) ↦{fifth3} W1 c main_arg1)
          ∗ (((c : Thread nD τ).loc main_arg1) ↦{fifth4} W1 c main_arg1) ∗ (((c : Thread nD τ).loc main_v1) ↦{fullShare} W1 c main_v1)
          ∗ (((c : Thread nD τ).loc main_v2) ↦{fullShare} (dat1 (atRefs W1) c).arrAt 6 cfg1.N)) : sProp 𝕄)
        ⊢ iprop((((c : Thread nD τ).loc main_arg1) ↦{fullShare} W2 c main_arg1) ∗ (((c : Thread nD τ).loc main_v1) ↦{fullShare} W2 c main_v1)
          ∗ (((c : Thread nD τ).loc main_v2) ↦{fullShare} W2 c main_v2))
    rw [hne main_arg1 (by decide), hne main_v1 (by decide), hout]
    iintro ⟨H0, H1, H2, H3, H4, H5, H6⟩
    isplitl [H0 H1 H2 H3 H4]
    · iapply (join5 _ _)
      isplitl [H0]; · iexact H0
      isplitl [H1]; · iexact H1
      isplitl [H2]; · iexact H2
      isplitl [H3]; · iexact H3
      iexact H4
    isplitl [H5]; · iexact H5
    iexact H6
  · unfold Pipeline.unscopedRest
    exact bigSep_congr fun b hb => by
      rw [show atRefs W2 c b = atRefs W1 c b from
        hne b fun h => (Finset.mem_sdiff.mp hb).2 (h ▸ Finset.mem_image.mpr ⟨6, Finset.mem_univ _, rfl⟩)]

/-! ## The two calls as segments -/

set_option backward.isDefEq.respectTransparency.types false in
/-- THE FIRST CALL, entered from every unscoped buffer at `W0` and left at `W1`, which has the bf16 product array
    at what the pipeline's write-backs leave and every other buffer as entered. Its four arrays are distinct
    buffers taken whole out of the unscoped buffers and put back; the generator register goes into the pipeline's
    invariant and comes back; nothing is owed; the kernel names no semaphore of its own. -/
def reg0 (hout0 : ∀ c, W1 c main_v1 = (dat0 (atRefs W0) c).arrAt 3 cfg0.N)
    (hne0 : ∀ c (b : Ref sig .tc), b ≠ main_v1 → W1 c b = W0 c b) :
    Pipeline.RegionSeg (pcfgs (F := F)) adm (pdats W0 W1) () defs₀ 𝒱₀ L lv 0 where
  win := launch0.win.to₀
  block_pos := launch0.block_pos
  stage_whole := launch0.stage_whole
  K := PEmpty
  osem k := k.elim
  ho := Pipeline.OwnSemFacts.none _
  hbody c := (obligation0 (atRefs W0) c).loose
  hwaits := Pipeline.hwaits_of_owed_zero _ _ _ _ L lv 0 fun _ _ => rfl
  pre c := iprop(StableHlo.held (c : Thread nD τ) (Pipeline.ucRefs τ sig) (W0 c) ∗ Rest c)
  post c := iprop(StableHlo.held (c : Thread nD τ) (Pipeline.ucRefs τ sig) (W1 c) ∗ Rest c)
  X c := iprop(∃ r, prngReg c r)
  Y c := iprop(∃ r, prngReg c r)
  Z c := Pipeline.unscopedRest (Ix := Unit) (Name := ℕ) (U := UR sig nD τ) (Lvl := ℕ) spec0 c (atRefs W0 c)
  hentry c := by
    rw [Pipeline.ownSems0_none]
    have hsplit := Pipeline.arrays_of_unscopedBufs (p := 0) (pcfgs (F := F)) adm (pdats W0 W1) launch0.win launch0.arr_whole c
      ((pdats W0 W1 0 c).share_full fun _ => rfl) (atRefs W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W0 W1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats W0 W1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats W0 W1) ((pdats W0 W1 0 c).share_full fun _ => rfl)
      (atRefs W0 c) (atRefs W1 c) ((pdats W0 W1 0 c).arrAt · cfg0.N)
      (fun w => by
        fin_cases w
        · exact ((pdats W0 W1 0 c).arrAt_in 0 rfl _).trans (hne0 c main_arg0 (by decide)).symm
        · exact ((pdats W0 W1 0 c).arrAt_in 1 rfl _).trans (hne0 c main_arg2 (by decide)).symm
        · exact ((pdats W0 W1 0 c).arrAt_in 2 rfl _).trans (hne0 c main_v0 (by decide)).symm
        · exact (hout0 c).symm)
      (fun b hb => hne0 c b fun h => hb (h ▸ Finset.mem_image.mpr ⟨3, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL, entered from every unscoped buffer at `W1` and left at `W2`, which has the result array at
    what the pipeline's write-backs leave and every other buffer as entered. The square array enters dealt into
    fifths, one per window on it, and leaves joined (`enter1`, `leave1`); the rest as for the first call. -/
def reg1 (hout1 : ∀ c, W2 c main_v2 = (dat1 (atRefs W1) c).arrAt 6 cfg1.N)
    (hne1 : ∀ c (b : Ref sig .tc), b ≠ main_v2 → W2 c b = W1 c b) :
    Pipeline.RegionSeg (pcfgs (F := F)) adm (pdats W0 W1) () defs₀ 𝒱₀ L lv 1 where
  win := winFacts₀1
  block_pos := block_pos1
  stage_whole := stage_whole1
  K := PEmpty
  osem k := k.elim
  ho := Pipeline.OwnSemFacts.none _
  hbody c := (obligation1 (atRefs W1) c).loose
  hwaits := Pipeline.hwaits_of_owed_zero _ _ _ _ L lv 1 fun _ _ => rfl
  pre c := iprop(StableHlo.held (c : Thread nD τ) (Pipeline.ucRefs τ sig) (W1 c) ∗ Rest c)
  post c := iprop(StableHlo.held (c : Thread nD τ) (Pipeline.ucRefs τ sig) (W2 c) ∗ Rest c)
  X c := iprop(∃ r, prngReg c r)
  Y c := iprop(∃ r, prngReg c r)
  Z c := Pipeline.unscopedRest (Ix := Unit) (Name := ℕ) (U := UR sig nD τ) (Lvl := ℕ) spec1 c (atRefs W1 c)
  hentry c := by
    rw [Pipeline.ownSems0_none]
    have hsplit := enter1 W1 c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W0 W1 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats W0 W1 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := leave1 W1 W2 c (hout1 c) (hne1 c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Frm

end
-- ==== Proof.FrameI.Run.lean ====
/-
  The whole program run: the reshape of the bias to a row, the first pallas_call, the second. Between items the
  core holds every unscoped buffer whole at a valuation: the launch memory; then that with the row written; then
  that with the bf16 product array at what the first call's write-backs leave; then that with the result array at
  what the second call's leave. Every weakly fair execution terminates, and in the final memory the result array
  holds the last of these and the four arguments hold what they were launched with (no item writes one).
-/
import proofs.«174017_g15564961480952_cont_week2b_1514_4_alg».proof.Proof.FrameI.Segs
import proofs.«174017_g15564961480952_cont_week2b_1514_4_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the first call leaves in the bf16 product array: its write-backs folded over the five points, from the
    contents the call is entered at (the launch memory with the row written). -/
def harr (c : Dev nD) : Buf (Elt F) ((c : Thread nD τ).loc main_v1) := (dat0 (atRefs (Gen.V1 m)) c).arrAt 3 cfg0.N

/-- The core's buffers after the first call. -/
abbrev Wmid (c : Dev nD) : Valuation τ sig (Elt F) := Function.update (Gen.V1 m c) main_v1 (harr m c)

/-- What the second call leaves in the result array: its write-backs folded over the 25 points. -/
def oarr (c : Dev nD) : Buf (Elt F) ((c : Thread nD τ).loc main_v2) := (dat1 (atRefs (Wmid m)) c).arrAt 6 cfg1.N

/-- The core's buffers after the second call. -/
abbrev Wend (c : Dev nD) : Valuation τ sig (Elt F) := Function.update (Wmid m c) main_v2 (oarr m c)

theorem Wmid_v1 (c : Dev nD) : Wmid m c main_v1 = harr m c := by simp only [Wmid, Function.update_self]
theorem Wmid_of (c : Dev nD) (r : Ref sig .tc) (h : r ≠ main_v1) : Wmid m c r = Gen.V1 m c r := by
  simp only [Wmid, Function.update_of_ne (StableHlo.devRef_ne_of_ne h : (Proc.devRef .tc r : DevRef τ sig) ≠ Proc.devRef .tc main_v1)]
theorem Wend_v2 (c : Dev nD) : Wend m c main_v2 = oarr m c := by simp only [Wend, Function.update_self]
theorem Wend_of (c : Dev nD) (r : Ref sig .tc) (h : r ≠ main_v2) : Wend m c r = Wmid m c r := by
  simp only [Wend, Function.update_of_ne (StableHlo.devRef_ne_of_ne h : (Proc.devRef .tc r : DevRef τ sig) ≠ Proc.devRef .tc main_v2)]

/-- An argument reaches the end as launched: the reshape writes only the row, the calls only their output arrays. -/
theorem Wend_arg (c : Dev nD) (r : Ref sig .tc) (h2 : r ≠ main_v2) (h1 : r ≠ main_v1) (h0 : r ∉ Gen.hostOps0_W) :
    Wend m c r = m ((c : Thread nD τ).loc r) :=
  (Wend_of m c r h2).trans <| (Wmid_of m c r h1).trans <| (Gen.V1_of m c r h0).trans rfl

/-! ## @main as segments -/

/-- The reshape as a segment: the unscoped buffers from the launch memory to that with the row written. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) Rest

/-- @main's three items in order. -/
abbrev segs : List (Pipeline.Seg (pcfgs (F := F)) adm (pdats (Gen.V1 m) (Wmid m)) () defs₀ 𝒱₀ L lv) :=
  [ .host (hseg0 m),
    .region (reg0 (Gen.V1 m) (Wmid m) (fun c => Wmid_v1 m c) (fun c b h => Wmid_of m c b h)),
    .region (reg1 (Gen.V1 m) (Wmid m) (Wend m) (fun c => Wend_v2 m c) (fun c b h => Wend_of m c b h)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for the `owes`. -/
abbrev Tlast (c : Dev nD) : sProp 𝕄 := iprop(StableHlo.held (c : Thread nD τ) (Pipeline.ucRefs τ sig) (Wend m c) ∗ ∃ r, prngReg c r)

/-! ## The run -/

set_option backward.isDefEq.respectTransparency.types false in
/-- From any memory with zero counters every weakly fair execution of @main terminates, nothing faulting, with
    the result array at `oarr` and each argument array as launched. -/
theorem run_all : θ_run defs (onTc (τ := τ) (main (F := F))) ⟨m, fun _ => 0, ρ⟩ (fun r => ∀ c : Dev nD,
      r.2.mem ((c.tc : Thread nD τ).loc main_v2) = oarr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats (Gen.V1 m) (Wmid m)) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c)) (Tₙ := Tlast m)
    (hch := ⟨fun _ => .rfl, fun _ => .rfl, fun _ => .rfl, fun c => by
      show (iprop(StableHlo.held (c : Thread nD τ) (Pipeline.ucRefs τ sig) (Wend m c) ∗ Rest c) : sProp 𝕄)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c =>
      ⟨(h c _ (mem_uc main_v2 (by decide))).trans (Wend_v2 m c),
       (h c _ (mem_uc main_arg0 (by decide))).trans (Wend_arg m c main_arg0 (by decide) (by decide) (by decide)),
       (h c _ (mem_uc main_arg1 (by decide))).trans (Wend_arg m c main_arg1 (by decide) (by decide) (by decide)),
       (h c _ (mem_uc main_arg2 (by decide))).trans (Wend_arg m c main_arg2 (by decide) (by decide) (by decide)),
       (h c _ (mem_uc main_arg3 (by decide))).trans (Wend_arg m c main_arg3 (by decide) (by decide) (by decide))⟩)

/-- The frame: every execution terminates, nothing faults, the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Frm

end
-- ==== Proof.Spec.lean ====
/-
  The function both programs compute, over the extended reals, index by index:
    h[r, j]   = Σ_l x[r, l] · W[l, j] + b[j]                  (10000 × 256)
    out[i, j] = max (Σ_k adj[i, k] · h[k, j]) 0                (10000 × 256)
  Sums are finite sums in the commutative monoid of extended reals, so no order or grouping of the terms is
  part of the statement.
-/
import Idealize.ShloMosaic.PureOps.Ideal
import Idealize.ShloMosaic.Lib.ValueIdx

noncomputable section

namespace Cert.Spec

open Idealize.ShloMosaic Idealize.ShloMosaic.ValueIdx

/-- The hidden array: the product of `x` and `W` plus the bias along the rows. -/
def hfun (x : (⟨2, ![10000, 256]⟩ : Shape).Idx → EReal) (W : (⟨2, ![256, 256]⟩ : Shape).Idx → EReal)
    (b : (⟨1, ![256]⟩ : Shape).Idx → EReal) : (⟨2, ![10000, 256]⟩ : Shape).Idx → EReal :=
  fun i => (∑ l : Fin 256, x (ix2 (i 0 : Fin 10000) l) * W (ix2 l (i 1 : Fin 256))) + b (ix1 (i 1 : Fin 256))

theorem hfun_apply (x : (⟨2, ![10000, 256]⟩ : Shape).Idx → EReal) (W : (⟨2, ![256, 256]⟩ : Shape).Idx → EReal)
    (b : (⟨1, ![256]⟩ : Shape).Idx → EReal) (r : Fin 10000) (j : Fin 256) :
    hfun x W b (ix2 r j) = (∑ l : Fin 256, x (ix2 r l) * W (ix2 l j)) + b (ix1 j) := rfl

/-- The result: the product of `adj` and a hidden array, clamped below at zero. -/
def ofun (adj : (⟨2, ![10000, 10000]⟩ : Shape).Idx → EReal) (h : (⟨2, ![10000, 256]⟩ : Shape).Idx → EReal) :
    (⟨2, ![10000, 256]⟩ : Shape).Idx → EReal :=
  fun i => max (∑ k : Fin 10000, adj (ix2 (i 0 : Fin 10000) k) * h (ix2 k (i 1 : Fin 256))) 0

theorem ofun_apply (adj : (⟨2, ![10000, 10000]⟩ : Shape).Idx → EReal) (h : (⟨2, ![10000, 256]⟩ : Shape).Idx → EReal)
    (i : Fin 10000) (j : Fin 256) :
    ofun adj h (ix2 i j) = max (∑ k : Fin 10000, adj (ix2 i k) * h (ix2 k j)) 0 := rfl

end Cert.Spec

end
-- ==== Proof.ValueH.lean ====
/-
  What the first pallas_call leaves in the bf16 product array, at the ideal instance: the hidden array
  h[r, j] = Σ_l x[r, l] · W[l, j] + b[j] of the launched arguments. At grid point t the body's one store writes, at
  (p, q) of the 2000×256 block, the product's entry plus the row's q-th entry (narrowing to bf16 is the identity on
  extended reals, and a product accumulated from the zero word is the plain sum); the point's row block is rows
  2000 t … 2000 t + 1999 of x, the other two operands are whole, the row is the bias reshaped; the five blocks
  cover the 10000 rows.
-/
import proofs.«174017_g15564961480952_cont_week2b_1514_4_alg».proof.Proof.FrameI.Run
import proofs.«174017_g15564961480952_cont_week2b_1514_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

/-! ## The first call's matrix product at an index -/

theorem lhsA_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsA_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsA_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsA_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the product accumulated from zero: the sum over the 256 shared indices. -/
theorem prodA_apply (x : Vec Ideal S2000x256 .f32) (w : Vec Ideal S256x256 .f32) (p : Fin 2000) (q : Fin 256) :
    matmul (F := Ideal) (φ₁ := .f32) (φ₂ := .f32) dot_S2000x256_S256x256_S2000x256_1_0_0_1_n_n none x w (constant S2000x256 .f32 0x00000000#32) (ix2 p q)
      = ∑ l : Fin 256, x (ix2 p l) * w (ix2 l q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-- The stored payload at (p, q): the product's entry plus the row's q-th entry (narrowing is the identity on
    extended reals). -/
theorem payA_apply (x : Vec Ideal S2000x256 .f32) (w : Vec Ideal S256x256 .f32) (b : Vec Ideal S1x256 .f32) (p : Fin 2000) (q : Fin 256) :
    k0_pay1 (F := Ideal) x w b (ix2 p q) = (∑ l : Fin 256, x (ix2 p l) * w (ix2 l q)) + b (ix2 (0 : Fin 1) q) := by
  unfold k0_pay1
  rw [truncf_apply, addf_apply, prodA_apply, shapeCast_self,
    broadcastTo_apply b broadcasts_S1x256_S2000x256 (ix2 p q) (ix2 (0 : Fin 1) q) (fun a => match a with
      | ⟨0, _⟩ => by show (0 : Nat) = if (1 : Nat) = 1 then 0 else p.val; rw [if_pos rfl]
      | ⟨1, _⟩ => by show q.val = if (256 : Nat) = 1 then 0 else q.val; rw [if_neg (by decide)])]

/-! ## The first call's windows at a point -/

variable (m : (ℓ : Loc nD τ sig) → Buf (Elt Ideal) ℓ)

theorem hz : (![0, 0] : Fin 2 → Nat) = fun _ => 0 := funext fun a => by fin_cases a <;> rfl

/-- The index maps over the five points: the row block and the output block sit at block row `t`, block column 0;
    the two operands fetched once sit at block (0, 0). -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row the first call is handed is the bias reshaped to 1×256. -/
theorem rowV (c : Dev nD) :
    (Gen.V1 m c main_v0 : S1x256.Idx → EReal) = shapeCast S1x256 (m ((c : Thread nD τ).loc main_arg3)) shapeCasts_S256_S1x256 := by
  show StableHlo.after hostOps0 (fun b => m (c, b)) (Proc.devRef .tc main_v0) = _
  after_results
  rfl

/-- Row block `t` of the first operand, entry (p, l), is the launched array's entry (2000 t + p, l). -/
theorem blkX (c : Dev nD) (t : Fin cfg0.N) (p : Fin 2000) (l : Fin 256) (r : Fin 10000) (hr : r.val = t.val * 2000 + p.val) :
    blk0 (atRefs (Gen.V1 m)) c 0 t (ix2 p l) = m ((c : Thread nD τ).loc main_arg0) (ix2 r l) := by
  obtain ⟨f0, f1, -⟩ := idxA t
  show Gen.V1 m c main_arg0 (((cfg0.win 0).blk t).view.emb (ix2 p l)) = _
  rw [Gen.V1_of m c main_arg0 (by decide)]
  show m ((c : Thread nD τ).loc main_arg0) (((cfg0.win 0).blk t).view.emb (ix2 p l)) = _
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * l.val = l.val; omega

/-- The second operand's block is the whole launched array at every point. -/
theorem blkW (c : Dev nD) (t : Fin cfg0.N) (l : Fin 256) (q : Fin 256) :
    blk0 (atRefs (Gen.V1 m)) c 1 t (ix2 l q) = m ((c : Thread nD τ).loc main_arg2) (ix2 l q) := by
  obtain ⟨-, -, f2, f3, -⟩ := idxA t
  show Gen.V1 m c main_arg2 (((cfg0.win 1).blk t).view.emb (ix2 l q)) = _
  rw [Gen.V1_of m c main_arg2 (by decide)]
  show m ((c : Thread nD τ).loc main_arg2) (((cfg0.win 1).blk t).view.emb (ix2 l q)) = _
  refine congrArg _ (funext fun a => Fin.ext ?_)
  match a with
  | ⟨0, _⟩ => show win0_1.index t (0 : Fin 2) * 256 + 1 * l.val = l.val; omega
  | ⟨1, _⟩ => show win0_1.index t (1 : Fin 2) * 256 + 1 * q.val = q.val; omega

/-- The row's block is the whole row, and its q-th entry is the launched bias's. -/
theorem blkB (c : Dev nD) (t : Fin cfg0.N) (q : Fin 256) :
    blk0 (atRefs (Gen.V1 m)) c 2 t (ix2 (0 : Fin 1) q) = m ((c : Thread nD τ).loc main_arg3) (ix1 q) := by
  obtain ⟨-, -, -, -, f4, f5, -⟩ := idxA t
  show (Gen.V1 m c main_v0 : S1x256.Idx → EReal) (((cfg0.win 2).blk t).view.emb (ix2 (0 : Fin 1) q)) = _
  rw [rowV]
  have e : ((cfg0.win 2).blk t).view.emb (ix2 (0 : Fin 1) q) = ix2 (0 : Fin 1) q := funext fun a => Fin.ext (by
    match a with
    | ⟨0, _⟩ => show win0_2.index t (0 : Fin 2) * 1 + 1 * (0 : Nat) = 0; omega
    | ⟨1, _⟩ => show win0_2.index t (1 : Fin 2) * 256 + 1 * q.val = q.val; omega)
  rw [e]
  exact (shapeCast_addUnit_apply ![256] _ shapeCasts_S256_S1x256 (ix2 (0 : Fin 1) q)).trans
    (congrArg _ (funext fun a => by match a with | ⟨0, _⟩ => rfl))

/-- Entry (p, q) of the output's block at point `t` is the array's entry (2000 t + p, q). -/
theorem embH (t : Fin cfg0.N) (p : Fin 2000) (q : Fin 256) (r : Fin 10000) (hr : r.val = t.val * 2000 + p.val) :
    ((cfg0.win 3).blk t).view.emb (ix2 p q) = ix2 r q := by
  obtain ⟨-, -, -, -, -, -, f6, f7⟩ := idxA t
  refine funext fun a => Fin.ext ?_
  match a with
  | ⟨0, _⟩ => show win0_3.index t (0 : Fin 2) * 2000 + 1 * p.val = r.val; omega
  | ⟨1, _⟩ => show win0_3.index t (1 : Fin 2) * 256 + 1 * q.val = q.val; omega

/-! ## What a point writes back, and the array after the five points -/

/-- Point `t` writes back block `t` of the hidden array `x·W + b` of the launched arguments. -/
theorem flushedH (c : Dev nD) (t : Fin cfg0.N) :
    (dat0 (atRefs (Gen.V1 m)) c).flushed 3 t = ((cfg0.win 3).blk t).view.read (Elt Ideal)
      (Cert.Spec.hfun (m ((c : Thread nD τ).loc main_arg0)) (m ((c : Thread nD τ).loc main_arg2)) (m ((c : Thread nD τ).loc main_arg3))) := by
  show (cfg0.win 3).cut (grid0.coords t) ((dat0 (atRefs (Gen.V1 m)) c).after 3 t) = _
  rw [dat0_after3]
  unfold hblock
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  have ht : t.val < 5 := by have h := t.isLt; have h5 : cfg0.N = 5 := N_0; omega
  let r : Fin 10000 := ⟨t.val * 2000 + p.val, by have := p.isLt; omega⟩
  show k0_pay1 (F := Ideal) (blk0 (atRefs (Gen.V1 m)) c 0 t) (blk0 (atRefs (Gen.V1 m)) c 1 t) (blk0 (atRefs (Gen.V1 m)) c 2 t) (ix2 p q)
    = Cert.Spec.hfun _ _ _ (((cfg0.win 3).blk t).view.emb (ix2 p q))
  rw [payA_apply, embH t p q r rfl, Cert.Spec.hfun_apply, blkB m c t q]
  refine congrArg (· + _) (Finset.sum_congr rfl fun l _ => ?_)
  rw [blkX m c t p l r rfl, blkW m c t l q]

/-- An index is in point `t`'s output block iff its row is among the block's 2000 rows. -/
theorem mem_blkH (t : Fin cfg0.N) (i : S10000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v1).slice (win0_3.rect t)).set ↔ _
  rw [View.set_slice_whole, Rect.mem_set_unit]
  exact Iff.rfl

/-- The five blocks of 2000 rows cover the 10000 rows: row `r` is in block `r / 2000`. -/
theorem coverH (i : S10000x256.Idx) : ∃ t : Fin cfg0.N, (cfg0.win 3).flush t = true ∧ i ∈ ((cfg0.win 3).blk t).view.set := by
  have hi0 : (i 0).val < 10000 := idx2_lt0 i
  have hi1 : (i 1).val < 256 := idx2_lt1 i
  let t : Fin cfg0.N := ⟨(i 0).val / 2000, by have h5 : cfg0.N = 5 := N_0; omega⟩
  obtain ⟨-, -, -, -, -, -, f6, f7⟩ := idxA t
  refine ⟨t, flush0_3 t, ?_⟩
  rw [mem_blkH]
  intro a
  match a with
  | ⟨0, _⟩ => show win0_3.index t (0 : Fin 2) * 2000 ≤ (i 0).val ∧ (i 0).val < win0_3.index t (0 : Fin 2) * 2000 + 2000
              rw [f6]; show (i 0).val / 2000 * 2000 ≤ (i 0).val ∧ (i 0).val < (i 0).val / 2000 * 2000 + 2000; omega
  | ⟨1, _⟩ => show win0_3.index t (1 : Fin 2) * 256 ≤ (i 1).val ∧ (i 1).val < win0_3.index t (1 : Fin 2) * 256 + 256
              rw [f7]; omega

/-- THE HIDDEN ARRAY after the first call is `x·W + b` of the launched arguments. -/
theorem harr_eq (c : Dev nD) :
    harr m c = Cert.Spec.hfun (m ((c : Thread nD τ).loc main_arg0)) (m ((c : Thread nD τ).loc main_arg2)) (m ((c : Thread nD τ).loc main_arg3)) :=
  (dat0 (atRefs (Gen.V1 m)) c).arrAt_eq_of_cover 3 _ (fun t _ => flushedH m c t) coverH

end Cert.KernelIdeal.Val

end
-- ==== Proof.ValueO.lean ====
/-
  What the second pallas_call leaves in the result array, at the ideal instance: out[i, j] = max (Σ_k adj[i, k] ·
  h[k, j]) 0 of the launched square array and the hidden array the first call left. At grid point t the body's five
  stores write the five 80-row bands of the 400×256 block; band c's payload at (p, q) is the clamped product of
  row block c (rows 80 (5 t + c) … of adj, narrowed to bf16: the identity here) with the whole hidden array. All
  five are blocks of ONE function of the block's index, so the block is that function; the 25 blocks cover the
  10000 rows.
-/
import proofs.«174017_g15564961480952_cont_week2b_1514_4_alg».proof.Proof.ValueH

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

/-! ## The second call's matrix product at an index -/

theorem lhsB_0 (i : S80x256.Idx) (q : dot_S80x10000_S10000x256_S80x256_1_0_0_1_n_n.contr.Idx) :
    (dot_S80x10000_S10000x256_S80x256_1_0_0_1_n_n.lhsIdx i q 0).val = (i 0).val := by
  unfold DotDims.lhsIdx
  rw [dif_neg (show ¬(0 : Fin S80x10000.rank) ∈ dot_S80x10000_S10000x256_S80x256_1_0_0_1_n_n.lhsBatch by decide), dif_pos (show (0 : Fin S80x10000.rank) ∈ dot_S80x10000_S10000x256_S80x256_1_0_0_1_n_n.lhsNonContracting by decide)]
  rfl
theorem lhsB_1 (i : S80x256.Idx) (q : dot_S80x10000_S10000x256_S80x256_1_0_0_1_n_n.contr.Idx) :
    (dot_S80x10000_S10000x256_S80x256_1_0_0_1_n_n.lhsIdx i q 1).val = (q ⟨0, by decide⟩).val :=
  dot_S80x10000_S10000x256_S80x256_1_0_0_1_n_n.lhsIdx_val_of_single rfl i q
theorem rhsB_0 (i : S80x256.Idx) (q : dot_S80x10000_S10000x256_S80x256_1_0_0_1_n_n.contr.Idx) :
    (dot_S80x10000_S10000x256_S80x256_1_0_0_1_n_n.rhsIdx i q 0).val = (q ⟨0, by decide⟩).val :=
  dot_S80x10000_S10000x256_S80x256_1_0_0_1_n_n.rhsIdx_val_of_single rfl i q
theorem rhsB_1 (i : S80x256.Idx) (q : dot_S80x10000_S10000x256_S80x256_1_0_0_1_n_n.contr.Idx) :
    (dot_S80x10000_S10000x256_S80x256_1_0_0_1_n_n.rhsIdx i q 1).val = (i 1).val := by
  unfold DotDims.rhsIdx
  rw [dif_neg (show ¬(1 : Fin S10000x256.rank) ∈ dot_S80x10000_S10000x256_S80x256_1_0_0_1_n_n.rhsBatch by decide), dif_pos (show (1 : Fin S10000x256.rank) ∈ dot_S80x10000_S10000x256_S80x256_1_0_0_1_n_n.rhsNonContracting by decide)]
  rfl

/-- Entry (p, q) of an 80×10000 by 10000×256 product accumulated from zero: the sum over the 10000 shared indices. -/
theorem prodB_apply (a : FVec Ideal S80x10000 .bf16) (h : FVec Ideal S10000x256 .bf16) (p : Fin 80) (q : Fin 256) :
    matmul (F := Ideal) (φ₁ := .bf16) (φ₂ := .bf16) dot_S80x10000_S10000x256_S80x256_1_0_0_1_n_n none a h (constant S80x256 .f32 0x00000000#32) (ix2 p q)
      = ∑ k : Fin 10000, a (ix2 p k) * h (ix2 k q) := by
  simp only [matmul]
  rw [Ideal.matmul_constant_zero_apply, ← Equiv.sum_comp (ValueIdx.contrEquiv1 dot_S80x10000_S10000x256_S80x256_1_0_0_1_n_n 10000 rfl rfl).symm]
  refine Finset.sum_congr rfl fun k _ => ?_
  have hk := ValueIdx.contrEquiv1_symm_val dot_S80x10000_S10000x256_S80x256_1_0_0_1_n_n 10000 rfl rfl k
  have el : dot_S80x10000_S10000x256_S80x256_1_0_0_1_n_n.lhsIdx (ix2 p q) ((ValueIdx.contrEquiv1 dot_S80x10000_S10000x256_S80x256_1_0_0_1_n_n 10000 rfl rfl).symm k) = ix2 p k := funext fun a => Fin.ext (by
    match a with
    | ⟨0, _⟩ => exact lhsB_0 _ _
    | ⟨1, _⟩ => exact (lhsB_1 _ _).trans hk)
  have er : dot_S80x10000_S10000x256_S80x256_1_0_0_1_n_n.rhsIdx (ix2 p q) ((ValueIdx.contrEquiv1 dot_S80x10000_S10000x256_S80x256_1_0_0_1_n_n 10000 rfl rfl).symm k) = ix2 k q := funext fun a => Fin.ext (by
    match a with
    | ⟨0, _⟩ => exact (rhsB_0 _ _).trans hk
    | ⟨1, _⟩ => exact rhsB_1 _ _)
  rw [el, er]

/-- One band's stored value at (p, q): the product of the row block (narrowed, which changes nothing here) with
    the hidden array, clamped below at the zero word, which is the real 0. -/
theorem bandPay (a : Vec Ideal S80x10000 .f32) (h : FVec Ideal S10000x256 .bf16) (p : Fin 80) (q : Fin 256) :
    maximumf (F := Ideal) (matmul (F := Ideal) dot_S80x10000_S10000x256_S80x256_1_0_0_1_n_n none (truncf .bf16 a bitsLt_bf16_f32) h (constant S80x256 .f32 0x00000000#32))
        (broadcast S80x256 (Scalar.ofBits (F := Ideal) .f32 0x00000000#32)) (ix2 p q)
      = max (∑ k : Fin 10000, a (ix2 p k) * h (ix2 k q)) 0 := by
  rw [maximumf_apply, broadcast_apply, prodB_apply]
  show max (∑ k : Fin 10000, a (ix2 p k) * h (ix2 k q)) (Ideal.ofBits .f32 0x00000000#32) = _
  rw [Ideal.ofBits_zero_f32]

theorem pay1_apply (h : Vec Ideal S10000x256 .bf16) (a : Vec Ideal S80x10000 .f32) (p : Fin 80) (q : Fin 256) :
    k1_pay1 (F := Ideal) (k1_pay2 h) a (ix2 p q) = max (∑ k : Fin 10000, a (ix2 p k) * h (ix2 k q)) 0 := by
  unfold k1_pay1 k1_pay2
  rw [shapeCast_self]
  exact bandPay a h p q
theorem pay3_apply (h : Vec Ideal S10000x256 .bf16) (a : Vec Ideal S80x10000 .f32) (p : Fin 80) (q : Fin 256) :
    k1_pay3 (F := Ideal) h a (ix2 p q) = max (∑ k : Fin 10000, a (ix2 p k) * h (ix2 k q)) 0 := by
  unfold k1_pay3 k1_pay2
  rw [shapeCast_self]
  exact bandPay a h p q
theorem pay4_apply (h : Vec Ideal S10000x256 .bf16) (a : Vec Ideal S80x10000 .f32) (p : Fin 80) (q : Fin 256) :
    k1_pay4 (F := Ideal) h a (ix2 p q) = max (∑ k : Fin 10000, a (ix2 p k) * h (ix2 k q)) 0 := by
  unfold k1_pay4 k1_pay2
  rw [shapeCast_self]
  exact bandPay a h p q
theorem pay5_apply (h : Vec Ideal S10000x256 .bf16) (a : Vec Ideal S80x10000 .f32) (p : Fin 80) (q : Fin 256) :
    k1_pay5 (F := Ideal) h a (ix2 p q) = max (∑ k : Fin 10000, a (ix2 p k) * h (ix2 k q)) 0 := by
  unfold k1_pay5 k1_pay2
  rw [shapeCast_self]
  exact bandPay a h p q
theorem pay6_apply (h : Vec Ideal S10000x256 .bf16) (a : Vec Ideal S80x10000 .f32) (p : Fin 80) (q : Fin 256) :
    k1_pay6 (F := Ideal) h a (ix2 p q) = max (∑ k : Fin 10000, a (ix2 p k) * h (ix2 k q)) 0 := by
  unfold k1_pay6 k1_pay2
  rw [shapeCast_self]
  exact bandPay a h p q

/-! ## The second call's windows at a point -/

variable (m : (ℓ : Loc nD τ sig) → Buf (Elt Ideal) ℓ)

/-- The index maps over the 25 points: row-block window c sits at block row 5 t + c, block column 0; the hidden
    array's window at block (0, 0); the output's at block row t, block column 0. -/
theorem idxB : ∀ t : Fin cfg1.N,
    win1_0.index t (0 : Fin 2) = 5 * t.val + 0 ∧ win1_0.index t (1 : Fin 2) = 0
    ∧ win1_1.index t (0 : Fin 2) = 5 * t.val + 1 ∧ win1_1.index t (1 : Fin 2) = 0
    ∧ win1_2.index t (0 : Fin 2) = 5 * t.val + 2 ∧ win1_2.index t (1 : Fin 2) = 0
    ∧ win1_3.index t (0 : Fin 2) = 5 * t.val + 3 ∧ win1_3.index t (1 : Fin 2) = 0
    ∧ win1_4.index t (0 : Fin 2) = 5 * t.val + 4 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The square array the second call is handed is the launched one: nothing before it writes it. -/
theorem adjV (c : Dev nD) : Wmid m c main_arg1 = m ((c : Thread nD τ).loc main_arg1) :=
  (Wmid_of m c main_arg1 (by decide)).trans ((Gen.V1_of m c main_arg1 (by decide)).trans rfl)

/-- Row-block window 0 at point `t`, entry (p, k), is the launched square array's entry (80 (5 t + 0) + p, k). -/
theorem blkA0 (c : Dev nD) (t : Fin cfg1.N) (p : Fin 80) (k : Fin 10000) (r : Fin 10000) (hr : r.val = (5 * t.val + 0) * 80 + p.val) :
    blk1 (atRefs (Wmid m)) c 0 t (ix2 p k) = m ((c : Thread nD τ).loc main_arg1) (ix2 r k) := by
  have f := idxB t
  show Wmid m c main_arg1 (((cfg1.win 0).blk t).view.emb (ix2 p k)) = _
  rw [adjV]
  refine congrArg _ (funext fun a => Fin.ext ?_)
  match a with
  | ⟨0, _⟩ => show win1_0.index t (0 : Fin 2) * 80 + 1 * p.val = r.val; omega
  | ⟨1, _⟩ => show win1_0.index t (1 : Fin 2) * 10000 + 1 * k.val = k.val; omega

/-- Row-block window 1 at point `t`, entry (p, k), is the launched square array's entry (80 (5 t + 1) + p, k). -/
theorem blkA1 (c : Dev nD) (t : Fin cfg1.N) (p : Fin 80) (k : Fin 10000) (r : Fin 10000) (hr : r.val = (5 * t.val + 1) * 80 + p.val) :
    blk1 (atRefs (Wmid m)) c 1 t (ix2 p k) = m ((c : Thread nD τ).loc main_arg1) (ix2 r k) := by
  have f := idxB t
  show Wmid m c main_arg1 (((cfg1.win 1).blk t).view.emb (ix2 p k)) = _
  rw [adjV]
  refine congrArg _ (funext fun a => Fin.ext ?_)
  match a with
  | ⟨0, _⟩ => show win1_1.index t (0 : Fin 2) * 80 + 1 * p.val = r.val; omega
  | ⟨1, _⟩ => show win1_1.index t (1 : Fin 2) * 10000 + 1 * k.val = k.val; omega

/-- Row-block window 2 at point `t`, entry (p, k), is the launched square array's entry (80 (5 t + 2) + p, k). -/
theorem blkA2 (c : Dev nD) (t : Fin cfg1.N) (p : Fin 80) (k : Fin 10000) (r : Fin 10000) (hr : r.val = (5 * t.val + 2) * 80 + p.val) :
    blk1 (atRefs (Wmid m)) c 2 t (ix2 p k) = m ((c : Thread nD τ).loc main_arg1) (ix2 r k) := by
  have f := idxB t
  show Wmid m c main_arg1 (((cfg1.win 2).blk t).view.emb (ix2 p k)) = _
  rw [adjV]
  refine congrArg _ (funext fun a => Fin.ext ?_)
  match a with
  | ⟨0, _⟩ => show win1_2.index t (0 : Fin 2) * 80 + 1 * p.val = r.val; omega
  | ⟨1, _⟩ => show win1_2.index t (1 : Fin 2) * 10000 + 1 * k.val = k.val; omega

/-- Row-block window 3 at point `t`, entry (p, k), is the launched square array's entry (80 (5 t + 3) + p, k). -/
theorem blkA3 (c : Dev nD) (t : Fin cfg1.N) (p : Fin 80) (k : Fin 10000) (r : Fin 10000) (hr : r.val = (5 * t.val + 3) * 80 + p.val) :
    blk1 (atRefs (Wmid m)) c 3 t (ix2 p k) = m ((c : Thread nD τ).loc main_arg1) (ix2 r k) := by
  have f := idxB t
  show Wmid m c main_arg1 (((cfg1.win 3).blk t).view.emb (ix2 p k)) = _
  rw [adjV]
  refine congrArg _ (funext fun a => Fin.ext ?_)
  match a with
  | ⟨0, _⟩ => show win1_3.index t (0 : Fin 2) * 80 + 1 * p.val = r.val; omega
  | ⟨1, _⟩ => show win1_3.index t (1 : Fin 2) * 10000 + 1 * k.val = k.val; omega

/-- Row-block window 4 at point `t`, entry (p, k), is the launched square array's entry (80 (5 t + 4) + p, k). -/
theorem blkA4 (c : Dev nD) (t : Fin cfg1.N) (p : Fin 80) (k : Fin 10000) (r : Fin 10000) (hr : r.val = (5 * t.val + 4) * 80 + p.val) :
    blk1 (atRefs (Wmid m)) c 4 t (ix2 p k) = m ((c : Thread nD τ).loc main_arg1) (ix2 r k) := by
  have f := idxB t
  show Wmid m c main_arg1 (((cfg1.win 4).blk t).view.emb (ix2 p k)) = _
  rw [adjV]
  refine congrArg _ (funext fun a => Fin.ext ?_)
  match a with
  | ⟨0, _⟩ => show win1_4.index t (0 : Fin 2) * 80 + 1 * p.val = r.val; omega
  | ⟨1, _⟩ => show win1_4.index t (1 : Fin 2) * 10000 + 1 * k.val = k.val; omega

/-- The hidden array's window is the whole array the first call left, at every point. -/
theorem blkHid (c : Dev nD) (t : Fin cfg1.N) (k : Fin 10000) (q : Fin 256) :
    blk1 (atRefs (Wmid m)) c 5 t (ix2 k q) = harr m c (ix2 k q) := by
  have f := idxB t
  show Wmid m c main_v1 (((cfg1.win 5).blk t).view.emb (ix2 k q)) = _
  rw [Wmid_v1]
  refine congrArg _ (funext fun a => Fin.ext ?_)
  match a with
  | ⟨0, _⟩ => show win1_5.index t (0 : Fin 2) * 10000 + 1 * k.val = k.val; omega
  | ⟨1, _⟩ => show win1_5.index t (1 : Fin 2) * 256 + 1 * q.val = q.val; omega

/-- Entry (y0, q) of the output's block at point `t` is the array's entry (400 t + y0, q). -/
theorem embO (t : Fin cfg1.N) (y0 : Fin 400) (q : Fin 256) (r : Fin 10000) (hr : r.val = t.val * 400 + y0.val) :
    ((cfg1.win 6).blk t).view.emb (ix2 y0 q) = ix2 r q := by
  have f := idxB t
  refine funext fun a => Fin.ext ?_
  match a with
  | ⟨0, _⟩ => show win1_6.index t (0 : Fin 2) * 400 + 1 * y0.val = r.val; omega
  | ⟨1, _⟩ => show win1_6.index t (1 : Fin 2) * 256 + 1 * q.val = q.val; omega

/-- Entry (p, q) of band 0 is the block's entry (0 + p, q). -/
theorem embBand0 (p : Fin 80) (q : Fin 256) (y0 : Fin 400) (hy : y0.val = 0 + p.val) : band0.emb (ix2 p q) = ix2 y0 q := by
  refine funext fun a => Fin.ext ?_
  match a with
  | ⟨0, _⟩ => show 0 + 1 * p.val = y0.val; omega
  | ⟨1, _⟩ => show 0 + 1 * q.val = q.val; omega
/-- Entry (p, q) of band 1 is the block's entry (80 + p, q). -/
theorem embBand1 (p : Fin 80) (q : Fin 256) (y0 : Fin 400) (hy : y0.val = 80 + p.val) : band1.emb (ix2 p q) = ix2 y0 q := by
  refine funext fun a => Fin.ext ?_
  match a with
  | ⟨0, _⟩ => show 80 + 1 * p.val = y0.val; omega
  | ⟨1, _⟩ => show 0 + 1 * q.val = q.val; omega
/-- Entry (p, q) of band 2 is the block's entry (160 + p, q). -/
theorem embBand2 (p : Fin 80) (q : Fin 256) (y0 : Fin 400) (hy : y0.val = 160 + p.val) : band2.emb (ix2 p q) = ix2 y0 q := by
  refine funext fun a => Fin.ext ?_
  match a with
  | ⟨0, _⟩ => show 160 + 1 * p.val = y0.val; omega
  | ⟨1, _⟩ => show 0 + 1 * q.val = q.val; omega
/-- Entry (p, q) of band 3 is the block's entry (240 + p, q). -/
theorem embBand3 (p : Fin 80) (q : Fin 256) (y0 : Fin 400) (hy : y0.val = 240 + p.val) : band3.emb (ix2 p q) = ix2 y0 q := by
  refine funext fun a => Fin.ext ?_
  match a with
  | ⟨0, _⟩ => show 240 + 1 * p.val = y0.val; omega
  | ⟨1, _⟩ => show 0 + 1 * q.val = q.val; omega
/-- Entry (p, q) of band 4 is the block's entry (320 + p, q). -/
theorem embBand4 (p : Fin 80) (q : Fin 256) (y0 : Fin 400) (hy : y0.val = 320 + p.val) : band4.emb (ix2 p q) = ix2 y0 q := by
  refine funext fun a => Fin.ext ?_
  match a with
  | ⟨0, _⟩ => show 320 + 1 * p.val = y0.val; omega
  | ⟨1, _⟩ => show 0 + 1 * q.val = q.val; omega

/-! ## What a point writes back, and the array after the 25 points -/

/-- Point `t` writes back block `t` of the result `max (adj · h) 0`, `h` the hidden array the first call left. -/
theorem flushedO (c : Dev nD) (t : Fin cfg1.N) :
    (dat1 (atRefs (Wmid m)) c).flushed 6 t = ((cfg1.win 6).blk t).view.read (Elt Ideal)
      (Cert.Spec.ofun (m ((c : Thread nD τ).loc main_arg1)) (harr m c)) := by
  show (cfg1.win 6).cut (grid1.coords t) ((dat1 (atRefs (Wmid m)) c).after 6 t) = _
  rw [dat1_after6]
  unfold oblock
  simp only [View.ld_unit_zero (S := S80x10000) hz, View.ld_unit_zero (S := S10000x256) hz]
  have ht : t.val < 25 := by have h := t.isLt; have h25 : cfg1.N = 25 := N_1; omega
  funext y
  refine (View.canon_apply_of_pieces (Val := Elt Ideal) (S := S400x256) (e := .f32)
    (fun y => Cert.Spec.ofun (m ((c : Thread nD τ).loc main_arg1)) (harr m c) (((cfg1.win 6).blk t).view.emb y)) _ ?_ y
    (oblock_cover _ _ _ _ _ y))
  intro pc hpc x
  simp only [List.mem_cons, List.mem_nil_iff, or_false] at hpc
  rcases hpc with rfl | rfl | rfl | rfl | rfl
  · -- the band at rows 320 … 399
    obtain ⟨p, q, rfl⟩ : ∃ (p : Fin 80) (q : Fin 256), x = ix2 p q := ⟨x 0, x 1, eq_ix2 x⟩
    have hp := p.isLt
    let y0 : Fin 400 := ⟨320 + p.val, by omega⟩
    let r : Fin 10000 := ⟨t.val * 400 + y0.val, by show t.val * 400 + (320 + p.val) < 10000; omega⟩
    show k1_pay1 (F := Ideal) (k1_pay2 (blk1 (atRefs (Wmid m)) c 5 t)) (blk1 (atRefs (Wmid m)) c 4 t) (ix2 p q)
      = Cert.Spec.ofun _ _ (((cfg1.win 6).blk t).view.emb (band4.emb (ix2 p q)))
    rw [pay1_apply, embBand4 p q y0 rfl, embO t y0 q r rfl, Cert.Spec.ofun_apply]
    refine congrArg (max · 0) (Finset.sum_congr rfl fun k _ => ?_)
    rw [blkA4 m c t p k r (by show t.val * 400 + (320 + p.val) = (5 * t.val + 4) * 80 + p.val; omega), blkHid m c t k q]
  · -- the band at rows 240 … 319
    obtain ⟨p, q, rfl⟩ : ∃ (p : Fin 80) (q : Fin 256), x = ix2 p q := ⟨x 0, x 1, eq_ix2 x⟩
    have hp := p.isLt
    let y0 : Fin 400 := ⟨240 + p.val, by omega⟩
    let r : Fin 10000 := ⟨t.val * 400 + y0.val, by show t.val * 400 + (240 + p.val) < 10000; omega⟩
    show k1_pay6 (F := Ideal) (blk1 (atRefs (Wmid m)) c 5 t) (blk1 (atRefs (Wmid m)) c 3 t) (ix2 p q)
      = Cert.Spec.ofun _ _ (((cfg1.win 6).blk t).view.emb (band3.emb (ix2 p q)))
    rw [pay6_apply, embBand3 p q y0 rfl, embO t y0 q r rfl, Cert.Spec.ofun_apply]
    refine congrArg (max · 0) (Finset.sum_congr rfl fun k _ => ?_)
    rw [blkA3 m c t p k r (by show t.val * 400 + (240 + p.val) = (5 * t.val + 3) * 80 + p.val; omega), blkHid m c t k q]
  · -- the band at rows 160 … 239
    obtain ⟨p, q, rfl⟩ : ∃ (p : Fin 80) (q : Fin 256), x = ix2 p q := ⟨x 0, x 1, eq_ix2 x⟩
    have hp := p.isLt
    let y0 : Fin 400 := ⟨160 + p.val, by omega⟩
    let r : Fin 10000 := ⟨t.val * 400 + y0.val, by show t.val * 400 + (160 + p.val) < 10000; omega⟩
    show k1_pay5 (F := Ideal) (blk1 (atRefs (Wmid m)) c 5 t) (blk1 (atRefs (Wmid m)) c 2 t) (ix2 p q)
      = Cert.Spec.ofun _ _ (((cfg1.win 6).blk t).view.emb (band2.emb (ix2 p q)))
    rw [pay5_apply, embBand2 p q y0 rfl, embO t y0 q r rfl, Cert.Spec.ofun_apply]
    refine congrArg (max · 0) (Finset.sum_congr rfl fun k _ => ?_)
    rw [blkA2 m c t p k r (by show t.val * 400 + (160 + p.val) = (5 * t.val + 2) * 80 + p.val; omega), blkHid m c t k q]
  · -- the band at rows 80 … 159
    obtain ⟨p, q, rfl⟩ : ∃ (p : Fin 80) (q : Fin 256), x = ix2 p q := ⟨x 0, x 1, eq_ix2 x⟩
    have hp := p.isLt
    let y0 : Fin 400 := ⟨80 + p.val, by omega⟩
    let r : Fin 10000 := ⟨t.val * 400 + y0.val, by show t.val * 400 + (80 + p.val) < 10000; omega⟩
    show k1_pay4 (F := Ideal) (blk1 (atRefs (Wmid m)) c 5 t) (blk1 (atRefs (Wmid m)) c 1 t) (ix2 p q)
      = Cert.Spec.ofun _ _ (((cfg1.win 6).blk t).view.emb (band1.emb (ix2 p q)))
    rw [pay4_apply, embBand1 p q y0 rfl, embO t y0 q r rfl, Cert.Spec.ofun_apply]
    refine congrArg (max · 0) (Finset.sum_congr rfl fun k _ => ?_)
    rw [blkA1 m c t p k r (by show t.val * 400 + (80 + p.val) = (5 * t.val + 1) * 80 + p.val; omega), blkHid m c t k q]
  · -- the band at rows 0 … 79
    obtain ⟨p, q, rfl⟩ : ∃ (p : Fin 80) (q : Fin 256), x = ix2 p q := ⟨x 0, x 1, eq_ix2 x⟩
    have hp := p.isLt
    let y0 : Fin 400 := ⟨0 + p.val, by omega⟩
    let r : Fin 10000 := ⟨t.val * 400 + y0.val, by show t.val * 400 + (0 + p.val) < 10000; omega⟩
    show k1_pay3 (F := Ideal) (blk1 (atRefs (Wmid m)) c 5 t) (blk1 (atRefs (Wmid m)) c 0 t) (ix2 p q)
      = Cert.Spec.ofun _ _ (((cfg1.win 6).blk t).view.emb (band0.emb (ix2 p q)))
    rw [pay3_apply, embBand0 p q y0 rfl, embO t y0 q r rfl, Cert.Spec.ofun_apply]
    refine congrArg (max · 0) (Finset.sum_congr rfl fun k _ => ?_)
    rw [blkA0 m c t p k r (by show t.val * 400 + (0 + p.val) = (5 * t.val + 0) * 80 + p.val; omega), blkHid m c t k q]

/-- An index is in point `t`'s output block iff its row is among the block's 400 rows. -/
theorem mem_blkO (t : Fin cfg1.N) (i : S10000x256.Idx) :
    i ∈ ((cfg1.win 6).blk t).view.set ↔ ∀ a : Fin 2, win1_6.index t a * S400x256.size a ≤ (i a).val ∧ (i a).val < win1_6.index t a * S400x256.size a + S400x256.size a := by
  show i ∈ ((View.whole main_v2).slice (win1_6.rect t)).set ↔ _
  rw [View.set_slice_whole, Rect.mem_set_unit]
  exact Iff.rfl

/-- The 25 blocks of 400 rows cover the 10000 rows: row `r` is in block `r / 400`. -/
theorem coverO (i : S10000x256.Idx) : ∃ t : Fin cfg1.N, (cfg1.win 6).flush t = true ∧ i ∈ ((cfg1.win 6).blk t).view.set := by
  have hi0 : (i 0).val < 10000 := idx2_lt0 i
  have hi1 : (i 1).val < 256 := idx2_lt1 i
  let t : Fin cfg1.N := ⟨(i 0).val / 400, by have h25 : cfg1.N = 25 := N_1; omega⟩
  have f := idxB t
  refine ⟨t, flush1_6 t, ?_⟩
  rw [mem_blkO]
  intro a
  match a with
  | ⟨0, _⟩ => show win1_6.index t (0 : Fin 2) * 400 ≤ (i 0).val ∧ (i 0).val < win1_6.index t (0 : Fin 2) * 400 + 400
              rw [f.2.2.2.2.2.2.2.2.2.2.2.2.1]; show (i 0).val / 400 * 400 ≤ (i 0).val ∧ (i 0).val < (i 0).val / 400 * 400 + 400; omega
  | ⟨1, _⟩ => show win1_6.index t (1 : Fin 2) * 256 ≤ (i 1).val ∧ (i 1).val < win1_6.index t (1 : Fin 2) * 256 + 256
              rw [f.2.2.2.2.2.2.2.2.2.2.2.2.2]; omega

/-- THE RESULT ARRAY after the second call is `max (adj · h) 0` of the launched square array and the hidden array. -/
theorem oarr_eq (c : Dev nD) :
    oarr m c = Cert.Spec.ofun (m ((c : Thread nD τ).loc main_arg1)) (harr m c) :=
  (dat1 (atRefs (Wmid m)) c).arrAt_eq_of_cover 6 _ (fun t _ => flushedO m c t) coverO

/-- The result array as a function of the four launched arguments. -/
theorem result_eq (c : Dev nD) :
    oarr m c = Cert.Spec.ofun (m ((c : Thread nD τ).loc main_arg1))
      (Cert.Spec.hfun (m ((c : Thread nD τ).loc main_arg0)) (m ((c : Thread nD τ).loc main_arg2)) (m ((c : Thread nD τ).loc main_arg3))) := by
  rw [oarr_eq, harr_eq]

end Cert.KernelIdeal.Val

end
-- ==== Proof.RefValue.lean ====
/-
  The reference program's result at the ideal instance is the specification's function of its four arguments:
  its run's composed term, read one operation at a time at an index, is
  max (Σ_k adj[i,k] · (Σ_l x[k,l] · W[l,j] + b[j])) 0, the literal zero being the real 0.
-/
import proofs.«174017_g15564961480952_cont_week2b_1514_4_alg».proof.Defs
import proofs.«174017_g15564961480952_cont_week2b_1514_4_alg».proof.Proof.Gen.ReferenceIdeal.Run
import proofs.«174017_g15564961480952_cont_week2b_1514_4_alg».proof.Proof.Gen.ReferenceIdeal.Read
import proofs.«174017_g15564961480952_cont_week2b_1514_4_alg».proof.Proof.Spec
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-! The operand indices the read-at-an-index lemmas name, at explicit coordinates. -/

theorem lidx0 (r : Fin 10000) (j : Fin 256) (l : Fin 256) : lidx_main_v0 (ix2 r j) l = ix2 r l :=
  funext fun a => by match a with | ⟨0, _⟩ => rfl | ⟨1, _⟩ => rfl
theorem ridx0 (r : Fin 10000) (j : Fin 256) (l : Fin 256) : ridx_main_v0 (ix2 r j) l = ix2 l j :=
  funext fun a => by match a with | ⟨0, _⟩ => rfl | ⟨1, _⟩ => rfl
theorem bidx (r : Fin 10000) (j : Fin 256) : idx_main_v1 (idx_main_v2 (ix2 r j)) = ix1 j :=
  funext fun a => by match a with | ⟨0, _⟩ => rfl
theorem lidx4 (i : Fin 10000) (j : Fin 256) (k : Fin 10000) : lidx_main_v4 (ix2 i j) k = ix2 i k :=
  funext fun a => by match a with | ⟨0, _⟩ => rfl | ⟨1, _⟩ => rfl
theorem ridx4 (i : Fin 10000) (j : Fin 256) (k : Fin 10000) : ridx_main_v4 (ix2 i j) k = ix2 k j :=
  funext fun a => by match a with | ⟨0, _⟩ => rfl | ⟨1, _⟩ => rfl

/-- The hidden stage at (r, j). -/
theorem hidden_apply (x : (⟨S10000x256, .f32⟩ : BufTy).Contents (Elt Ideal)) (W : (⟨S256x256, .f32⟩ : BufTy).Contents (Elt Ideal))
    (b : (⟨S256, .f32⟩ : BufTy).Contents (Elt Ideal)) (r : Fin 10000) (j : Fin 256) :
    val_main_v3 (F := Ideal) x W b (ix2 r j) = hfun x W b (ix2 r j) := by
  rw [val_main_v3_apply, val_main_v0_apply, val_main_v2_apply, val_main_v1_apply, hfun_apply]
  simp only [lidx0, ridx0, bidx, Ideal.addf_def]

/-- The reference's result is the specification's. -/
theorem result_eq (x : (⟨S10000x256, .f32⟩ : BufTy).Contents (Elt Ideal)) (adj : (⟨S10000x10000, .f32⟩ : BufTy).Contents (Elt Ideal))
    (W : (⟨S256x256, .f32⟩ : BufTy).Contents (Elt Ideal)) (b : (⟨S256, .f32⟩ : BufTy).Contents (Elt Ideal)) :
    val_main_v5 (F := Ideal) x adj W b = ofun adj (hfun x W b) := by
  funext i
  obtain ⟨p, q, rfl⟩ : ∃ (p : Fin 10000) (q : Fin 256), i = ix2 p q := ⟨i 0, i 1, eq_ix2 i⟩
  rw [val_main_v5_apply, val_main_v4_apply, val_main_call0_v0_apply, val_main_call0_cst_apply, ofun_apply]
  simp only [lidx4, ridx4, hidden_apply, Ideal.maximumf_def]
  show max _ (Ideal.ofBits .f32 0x00000000#32) = _
  rw [Ideal.ofBits_zero_f32]

end Cert.ReferenceIdeal.RefValue

end
-- ==== Proof.lean ====
/-
  A graph-convolution layer, out = max (adj · (x · W + b)) 0 over x : 10000×256, adj : 10000×10000, W : 256×256,
  b : 256, returned together with adj. The kernel computes it in two pallas_calls: the hidden array
  h = x · W + b in five blocks of 2000 rows, stored as bf16; then out in 25 blocks of 400 rows, each block from five
  80-row slabs of adj (five windows on the one array) narrowed to bf16 and multiplied with the whole h, clamped at
  zero. The reference is two matrix products, an addition of the broadcast bias and a maximum with zero.

  Over the extended reals a change of float format is the identity and a product accumulated from the zero word
  is the plain finite sum, so both programs compute, index by index,
    out[i, j] = max (Σ_k adj[i, k] · (Σ_l x[k, l] · W[l, j] + b[j])) 0,
  the same sums over the same index sets: no rearrangement of terms and no finiteness of the inputs is used.

  The three frames: each kernel program runs its reshape and its two calls to the end with its four arguments
  untouched (the calls write only the hidden array and the result); the reference's frame is its run with the
  result dropped. The idealized kernel is the kernel's own text read at the ideal instance, so there is nothing
  to preserve.
-/
import proofs.«174017_g15564961480952_cont_week2b_1514_4_alg».proof.Defs
import proofs.«174017_g15564961480952_cont_week2b_1514_4_alg».proof.Proof.Gen.Kernel
import proofs.«174017_g15564961480952_cont_week2b_1514_4_alg».proof.Proof.Gen.KernelIdeal
import proofs.«174017_g15564961480952_cont_week2b_1514_4_alg».proof.Proof.Gen.ReferenceIdeal
import proofs.«174017_g15564961480952_cont_week2b_1514_4_alg».proof.Proof.Gen.Pre_finite_inputs
import proofs.«174017_g15564961480952_cont_week2b_1514_4_alg».proof.Proof.Gen.ReferenceIdeal.Run
import proofs.«174017_g15564961480952_cont_week2b_1514_4_alg».proof.Proof.Gen.ReferenceIdeal.Read
import proofs.«174017_g15564961480952_cont_week2b_1514_4_alg».proof.Proof.FrameB.Run
import proofs.«174017_g15564961480952_cont_week2b_1514_4_alg».proof.Proof.FrameI.Run
import proofs.«174017_g15564961480952_cont_week2b_1514_4_alg».proof.Proof.ValueO
import proofs.«174017_g15564961480952_cont_week2b_1514_4_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Frm.frame m ρ

/-- So does its reading at the ideal instance. -/
theorem frame_kernelIdeal : Cert.frame_KernelIdeal := fun m ρ _ => Cert.KernelIdeal.Frm.frame m ρ

/-- The reference runs to the end and leaves its arguments as launched: its run, the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the four arguments both programs end with the result array at
    max (adj · (x · W + b)) 0 of those arguments and with adj as launched. -/
theorem algebraic : Cert.algebraic_KernelIdeal_ReferenceIdeal := by
  intro m ρ m' ρ' _ hagree
  refine ⟨fun c => Cert.Spec.ofun (m ((c.tc : Thread Cert.KernelIdeal.nD Cert.KernelIdeal.τ).loc Cert.KernelIdeal.main_arg1))
      (Cert.Spec.hfun (m ((c.tc : Thread Cert.KernelIdeal.nD Cert.KernelIdeal.τ).loc Cert.KernelIdeal.main_arg0)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3))),
    fun c => m ((c.tc : Thread Cert.KernelIdeal.nD Cert.KernelIdeal.τ).loc Cert.KernelIdeal.main_arg1), ?_, ?_⟩
  · exact (θ_run Cert.KernelIdeal.defs _ _).mono (fun _ h c =>
      ⟨(h c).1.trans (Cert.KernelIdeal.Val.result_eq m c), (h c).2.2.1, (h c).2.1, (h c).2.2.1, (h c).2.2.2.1, (h c).2.2.2.2⟩)
      (Cert.KernelIdeal.Frm.run_all (F := Ideal) m ρ)
  · refine (θ_run Cert.ReferenceIdeal.defs _ _).mono (fun _ h c => ⟨?_, (h c).2.1.trans (hagree c).2.1, (h c).2.2⟩)
      (Cert.ReferenceIdeal.Value.run (F := Ideal) m' ρ')
    rw [(h c).1, Cert.ReferenceIdeal.Read.val_main_v5_eq, Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
